-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x1 : Shape := ⟨2, ![32, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S100000x32 .f32) (main_arg1 : IVec S2x1600000 32) (main_arg2 : FVec F S32x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg1 main_arg5 main_arg6 main_arg7 main_v13 main_v16
-- ==== Kernel.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x32 : Shape := ⟨2, ![1, 32]⟩
abbrev S5000x32 : Shape := ⟨2, ![5000, 32]⟩
abbrev S1x1 : Shape := ⟨2, ![1, 1]⟩
abbrev S1700000x32 : Shape := ⟨2, ![1700000, 32]⟩
abbrev S5000x1 : Shape := ⟨2, ![5000, 1]⟩
abbrev S100000x1 : Shape := ⟨2, ![100000, 1]⟩

abbrev nBuf : Space → Nat
  | .hbm => 144
  | .vmem => 36
  | .smem => 0
  | _ => 0

abbrev hbmTy0_0 (i : Nat) : BufTy := match i % 128 with
  | 0 => ⟨S100000x32, .f32⟩
  | 1 => ⟨S2x1600000, .i32⟩
  | 2 => ⟨S32x32, .f32⟩
  | 3 => ⟨S32, .f32⟩
  | 4 => ⟨S32x32, .f32⟩
  | 5 => ⟨S32, .f32⟩
  | 6 => ⟨S32x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S_, .f32⟩
  | 50 => ⟨S32, .f32⟩
  | 51 => ⟨S1x32, .f32⟩
  | 52 => ⟨S100000x32, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1, .i32⟩
  | 62 => ⟨S_, .i32⟩
  | 63 => ⟨S1700000x1, .i32⟩
  | 64 => ⟨S1700000x1, .i1⟩
  | 65 => ⟨S1x1, .i32⟩
  | 66 => ⟨S1700000x1, .i32⟩
  | 67 => ⟨S1700000x1, .i1⟩
  | 68 => ⟨S1700000x1, .i1⟩
  | 69 => ⟨S_, .i1⟩
  | 70 => ⟨S1700000, .i1⟩
  | 71 => ⟨S1700000x32, .f32⟩
  | 72 => ⟨S1700000x32, .i1⟩
  | 73 => ⟨S_, .f32⟩
  | 74 => ⟨S1700000x32, .f32⟩
  | 75 => ⟨S1700000x32, .f32⟩
  | 76 => ⟨S1700000x32, .f32⟩
  | 77 => ⟨S_, .f32⟩
  | 78 => ⟨S100000x32, .f32⟩
  | 79 => ⟨S1700000x1, .i32⟩
  | 80 => ⟨S100000x32, .f32⟩
  | 81 => ⟨S1x32, .f32⟩
  | 82 => ⟨S100000x32, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1, .i32⟩
  | 92 => ⟨S_, .i32⟩
  | 93 => ⟨S1700000x1, .i32⟩
  | 94 => ⟨S1700000x1, .i1⟩
  | 95 => ⟨S1x1, .i32⟩
  | 96 => ⟨S1700000x1, .i32⟩
  | 97 => ⟨S1700000x1, .i1⟩
  | 98 => ⟨S1700000x1, .i1⟩
  | 99 => ⟨S_, .i1⟩
  | 100 => ⟨S1700000, .i1⟩
  | 101 => ⟨S1700000x32, .f32⟩
  | 102 => ⟨S1700000x32, .i1⟩
  | 103 => ⟨S_, .f32⟩
  | 104 => ⟨S1700000x32, .f32⟩
  | 105 => ⟨S1700000x32, .f32⟩
  | 106 => ⟨S1700000x32, .f32⟩
  | 107 => ⟨S_, .f32⟩
  | 108 => ⟨S100000x32, .f32⟩
  | 109 => ⟨S1700000x1, .i32⟩
  | 110 => ⟨S100000x32, .f32⟩
  | 111 => ⟨S1x32, .f32⟩
  | 112 => ⟨S100000x1, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1, .i32⟩
  | 122 => ⟨S_, .i32⟩
  | 123 => ⟨S1700000x1, .i32⟩
  | 124 => ⟨S1700000x1, .i1⟩
  | 125 => ⟨S1x1, .i32⟩
  | 126 => ⟨S1700000x1, .i32⟩
  | 127 => ⟨S1700000x1, .i1⟩
  | _ => ⟨S100000x32, .f32⟩

abbrev hbmTy0_1 (i : Nat) : BufTy := match i % 128 with
  | 0 => ⟨S1700000x1, .i1⟩
  | 1 => ⟨S_, .i1⟩
  | 2 => ⟨S1700000, .i1⟩
  | 3 => ⟨S1700000x1, .f32⟩
  | 4 => ⟨S1700000x1, .i1⟩
  | 5 => ⟨S_, .f32⟩
  | 6 => ⟨S1700000x1, .f32⟩
  | 7 => ⟨S1700000x1, .f32⟩
  | 8 => ⟨S1700000x1, .f32⟩
  | 9 => ⟨S_, .f32⟩
  | 10 => ⟨S100000x1, .f32⟩
  | 11 => ⟨S1700000x1, .i32⟩
  | 12 => ⟨S100000x1, .f32⟩
  | 13 => ⟨S1x1, .f32⟩
  | 14 => ⟨S100000x1, .f32⟩
  | 15 => ⟨S100000x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S1x32, .f32⟩
  | .local _ .vmem, ⟨3, _⟩ => ⟨S32x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x1, .f32⟩
  | .local _ .vmem, ⟨9, _⟩ => ⟨S5000x1, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S1x32, .f32⟩
  | .local _ .vmem, ⟨15, _⟩ => ⟨S32x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x1, .f32⟩
  | .local _ .vmem, ⟨21, _⟩ => ⟨S5000x1, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S1x32, .f32⟩
  | .local _ .vmem, ⟨27, _⟩ => ⟨S32x1, .f32⟩
  | .local _ .vmem, ⟨28, _⟩ => ⟨S5000x1, .f32⟩
  | .local _ .vmem, ⟨29, _⟩ => ⟨S5000x1, .f32⟩
  | .local _ .vmem, ⟨30, _⟩ => ⟨S5000x1, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v34 : Ref sig .tc := ⟨.hbm, 75, rfl⟩
abbrev main_v35 : Ref sig .tc := ⟨.hbm, 76, rfl⟩
abbrev main_cst_7 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_call2_cst : Ref sig .tc := ⟨.hbm, 103, rfl⟩
abbrev main_call2_v15 : Ref sig .tc := ⟨.hbm, 104, rfl⟩
abbrev main_v41 : Ref sig .tc := ⟨.hbm, 105, rfl⟩
abbrev main_v42 : Ref sig .tc := ⟨.hbm, 106, rfl⟩
abbrev main_cst_8 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_call3_c : Ref sig .tc := ⟨.hbm, 113, rfl⟩
abbrev main_call3_v0 : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_c_1 : Ref sig .tc := ⟨.hbm, 121, rfl⟩
abbrev main_call3_c_2 : Ref sig .tc := ⟨.hbm, 122, rfl⟩
abbrev main_call3_v6 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_c_3 : Ref sig .tc := ⟨.hbm, 129, rfl⟩
abbrev main_call3_v12 : Ref sig .tc := ⟨.hbm, 130, rfl⟩
abbrev main_call3_v13 : Ref sig .tc := ⟨.hbm, 131, rfl⟩
abbrev main_call3_v14 : Ref sig .tc := ⟨.hbm, 132, rfl⟩
abbrev main_call3_cst : Ref sig .tc := ⟨.hbm, 133, rfl⟩
abbrev main_call3_v15 : Ref sig .tc := ⟨.hbm, 134, rfl⟩
abbrev main_v48 : Ref sig .tc := ⟨.hbm, 135, rfl⟩
abbrev main_v49 : Ref sig .tc := ⟨.hbm, 136, rfl⟩
abbrev main_cst_9 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![340], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![340], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![340], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  bcast_S_S32 : S_.BroadcastsInDim S32 (![] : Fin 0 → Fin S32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x32_0 : S1700000.BroadcastsInDim S1700000x32 (![0] : Fin 1 → Fin S1700000x32.rank)
  bcast_S_S1700000x32 : S_.BroadcastsInDim S1700000x32 (![] : Fin 0 → Fin S1700000x32.rank)
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bcast_S_S100000x32 : S_.BroadcastsInDim S100000x32 (![] : Fin 0 → Fin S100000x32.rank)
  inb_S32x1_S32x1_0_0 : ∀ a, (![0, 0] : Fin 2 → Nat) a + S32x1.size a ≤ S32x1.size a
  h_S32x1 : 0 < S32x1.numel
  bcast_S_S100000x1 : S_.BroadcastsInDim S100000x1 (![] : Fin 0 → Fin S100000x1.rank)
  shapeCasts_S1_S1x1 : S1.ShapeCasts S1x1
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x32_S32x32_S5000x32_1_0_0_1_n_n_wf : DotDims.WF S5000x32 S32x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x1_S5000x1_1_0_0_1_n_n_wf : DotDims.WF S5000x32 S32x1 S5000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S1700000x32.size a
  hwx1_0 : ∀ i : grid1.Coords, EltTy.bits .f32 = 32 ∨ (Rect.block (s := S1700000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1700000x1.size a
  hwx1_1 : ∀ i : grid1.Coords, EltTy.bits .f32 = 32 ∨ (Rect.block (s := S1700000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S1700000x32.size a
  hwx1_2 : ∀ i : grid1.Coords, EltTy.bits .f32 = 32 ∨ (Rect.block (s := S1700000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S1700000x32.size a
  hwx3_0 : ∀ i : grid3.Coords, EltTy.bits .f32 = 32 ∨ (Rect.block (s := S1700000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S1700000x1.size a
  hwx3_1 : ∀ i : grid3.Coords, EltTy.bits .f32 = 32 ∨ (Rect.block (s := S1700000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S1700000x32.size a
  hwx3_2 : ∀ i : grid3.Coords, EltTy.bits .f32 = 32 ∨ (Rect.block (s := S1700000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x1.size a ≤ S32x1.size a
  hwx4_2 : ∀ i : grid4.Coords, EltTy.bits .f32 = 32 ∨ (Rect.block (s := S32x1) S32x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .f32 = 32 ∨ (Rect.block (s := S100000x1) S5000x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S1700000x1.size a
  hwx5_0 : ∀ i : grid5.Coords, EltTy.bits .f32 = 32 ∨ (Rect.block (s := S1700000x1) S5000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S1700000x1.size a
  hwx5_1 : ∀ i : grid5.Coords, EltTy.bits .f32 = 32 ∨ (Rect.block (s := S1700000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S1700000x1.size a
  hwx5_2 : ∀ i : grid5.Coords, EltTy.bits .f32 = 32 ∨ (Rect.block (s := S1700000x1) S5000x1.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S1x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S32x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v47) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v48) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v49) S5000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x32, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x32, .f32⟩
  | .hbm, ⟨58, _⟩ => ⟨S1700000x1, .f32⟩
  | .hbm, ⟨59, _⟩ => ⟨S1700000x32, .f32⟩
  | .hbm, ⟨60, _⟩ => ⟨S1700000x32, .f32⟩
  | .hbm, ⟨61, _⟩ => ⟨S_, .f32⟩
  | .hbm, ⟨62, _⟩ => ⟨S100000x32, .f32⟩
  | .hbm, ⟨63, _⟩ => ⟨S1700000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x32, .f32⟩
  | .hbm, ⟨81, _⟩ => ⟨S1700000x1, .f32⟩
  | .hbm, ⟨82, _⟩ => ⟨S1700000x32, .f32⟩
  | .hbm, ⟨83, _⟩ => ⟨S1700000x32, .f32⟩
  | .hbm, ⟨84, _⟩ => ⟨S_, .f32⟩
  | .hbm, ⟨85, _⟩ => ⟨S100000x32, .f32⟩
  | .hbm, ⟨86, _⟩ => ⟨S1700000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S_, .f32⟩
  | .hbm, ⟨92, _⟩ => ⟨S100000x32, .f32⟩
  | .hbm, ⟨93, _⟩ => ⟨S100000x32, .f32⟩
  | .hbm, ⟨94, _⟩ => ⟨S100000x1, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x1, .f32⟩
  | .hbm, ⟨104, _⟩ => ⟨S1700000x1, .f32⟩
  | .hbm, ⟨105, _⟩ => ⟨S1700000x1, .f32⟩
  | .hbm, ⟨106, _⟩ => ⟨S_, .f32⟩
  | .hbm, ⟨107, _⟩ => ⟨S100000x1, .f32⟩
  | .hbm, ⟨108, _⟩ => ⟨S1700000x1, .i32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x32_S100000x32_1_0_0_1_n_n_wf : DotDims.WF S100000x32 S32x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x1_S100000x1_1_0_0_1_n_n_wf : DotDims.WF S100000x32 S32x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.Spec.lean ====
/-
  The two dense building blocks of the message-passing network, read at an index over the extended reals.

  A LINEAR layer sends the row `r` of an activation array `a : [100000, 32]` through a bias row `b : [1, 32]`, an
  activation `act` and a weight matrix `w : [32, n]`:  out[r, j] = Σ_k act (a[r, k] + b[0, k]) · w[k, j]   (n = 32 or 1).
  A SCALING multiplies every entry of the edge row `e` of `g : [1700000, n]` by that edge's coefficient `s[e, 0]`.
  `relu x = max x 0`. Nothing here mentions a program: these are the functions both programs are compared with.
-/
import Idealize.ShloMosaic.PureOps.Ideal
import Idealize.ShloMosaic.Lib.ValueIdx

noncomputable section

open scoped BigOperators

namespace Cert.Spec

open Idealize.ShloMosaic Idealize.ShloMosaic.ValueIdx

/-- Node rows by 32 features, node rows by one feature, edge rows by 32 and by one, the bias row, the two weight shapes. -/
abbrev SN32 : Shape := ⟨2, ![100000, 32]⟩
abbrev SN1 : Shape := ⟨2, ![100000, 1]⟩
abbrev SE32 : Shape := ⟨2, ![1700000, 32]⟩
abbrev SE1 : Shape := ⟨2, ![1700000, 1]⟩
abbrev SB32 : Shape := ⟨2, ![1, 32]⟩
abbrev SW32 : Shape := ⟨2, ![32, 32]⟩
abbrev SW1 : Shape := ⟨2, ![32, 1]⟩

/-- The rectifier on the extended reals. -/
def relu (x : EReal) : EReal := max x 0

/-- A linear layer into 32 features: out[r, j] = Σ_k act (a[r, k] + b[0, k]) · w[k, j]. -/
def dense32 (act : EReal → EReal) (a : FVec Ideal SN32 .f32) (b : FVec Ideal SB32 .f32) (w : FVec Ideal SW32 .f32) :
    FVec Ideal SN32 .f32 :=
  fun i => ∑ k : Fin 32, act (a (ix2 (i 0) k) + b (ix2 (0 : Fin 1) k)) * w (ix2 k (i 1))

/-- A linear layer into one feature: out[r, 0] = Σ_k act (a[r, k] + b[0, k]) · w[k, 0]. -/
def dense1 (act : EReal → EReal) (a : FVec Ideal SN32 .f32) (b : FVec Ideal SB32 .f32) (w : FVec Ideal SW1 .f32) :
    FVec Ideal SN1 .f32 :=
  fun i => ∑ k : Fin 32, act (a (ix2 (i 0) k) + b (ix2 (0 : Fin 1) k)) * w (ix2 k (i 1))

/-- Every entry of edge row `e` times that edge's coefficient: out[e, j] = g[e, j] · s[e, 0]. -/
def scale32 (g : FVec Ideal SE32 .f32) (s : FVec Ideal SE1 .f32) : FVec Ideal SE32 .f32 :=
  fun i => g i * s (ix2 (i 0) (0 : Fin 1))

/-- The same over one feature: out[e, 0] = g[e, 0] · s[e, 0]. -/
def scale1 (g : FVec Ideal SE1 .f32) (s : FVec Ideal SE1 .f32) : FVec Ideal SE1 .f32 :=
  fun i => g i * s i

end Cert.Spec

end
-- ==== Proof.Bridge.lean ====
/-
  The reference's host operations meet the index-level building blocks (Proof/Spec.lean).
  A host `dot_general` of [100000, 32] by [32, n] over the one contracted axis is, entry by entry, the sum over k of
  products; with the bias broadcast along the rows and the rectifier written as a maximum with a zero splat in front of it, it
  is the linear layer `dense`. A product with a coefficient vector broadcast along the rows is the row scaling `scale`.
  A vector reshaped to a one-row (or one-column) array is the same array as the vector broadcast into it.
  All over the extended reals, where a sum's grouping and a change of float format do not matter.
-/
import proofs.«411567_j901943132623_2_alg».proof.Proof.RefRead
import proofs.«411567_j901943132623_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Cert.ReferenceIdeal Cert.ReferenceIdeal.Gen
open Idealize.ShloMosaic Idealize.ShloMosaic.ValueIdx

/-! ### Layout operations read at an index -/

/-- A zero splat broadcast to any shape is zero at every index. -/
private theorem zero_splat_apply {t : Shape} (h : S_.BroadcastsInDim t (![] : Fin 0 → Fin t.rank)) (j : t.Idx) :
    broadcastInDim t ![] h (constant (F := Ideal) S_ .f32 0x00000000#32) j = (0 : EReal) := by
  refine (broadcastInDim_apply _ h _ j ix0 (fun a => a.elim0)).trans ?_
  exact Ideal.ofBits_zero_f32

/-- A vector of 32 entries as a row, then the row repeated down 100000 rows, reads at (p, k) the vector at k. -/
private theorem row_bcast_apply (b : FVec Ideal S32 .f32) (h1 : S32.BroadcastsInDim S1x32 ![1])
    (h2 : S1x32.BroadcastsInDim S100000x32 ![0, 1]) (p : Fin 100000) (k : Fin 32) :
    broadcastInDim S100000x32 ![0, 1] h2 (broadcastInDim S1x32 ![1] h1 b) (ix2 p k) = b (ix1 k) := by
  refine (broadcastInDim_apply _ h2 _ (ix2 p k) (ix2 (0 : Fin 1) k) (fun a => ?_)).trans ?_
  · match a with
    | ⟨0, _⟩ => show (0 : Nat) = if (1 : Nat) = 1 then 0 else p.val; rw [if_pos rfl]
    | ⟨1, _⟩ => show k.val = if (32 : Nat) = 1 then 0 else k.val; rw [if_neg (by decide)]
  · refine broadcastInDim_apply _ h1 b (ix2 (0 : Fin 1) k) (ix1 k) (fun a => ?_)
    match a with
    | ⟨0, _⟩ => show k.val = if (32 : Nat) = 1 then 0 else k.val; rw [if_neg (by decide)]

/-- The same vector reshaped to one row reads at (0, k) the vector at k. -/
private theorem row_cast_apply (b : FVec Ideal S32 .f32) (hc : S32.ShapeCasts S1x32) (k : Fin 32) :
    shapeCast S1x32 b hc (ix2 (0 : Fin 1) k) = b (ix1 k) :=
  shapeCast_a_1a_apply b hc 0 k

/-- A vector of 1700000 entries as a column reads at (e, u) the vector at e. -/
private theorem col_bcast_apply (v : FVec Ideal S1700000 .f32) (h1 : S1700000.BroadcastsInDim S1700000x1 ![0])
    (e : Fin 1700000) (u : Fin 1) :
    broadcastInDim S1700000x1 ![0] h1 v (ix2 e u) = v (ix1 e) := by
  refine broadcastInDim_apply _ h1 v (ix2 e u) (ix1 e) (fun a => ?_)
  match a with
  | ⟨0, _⟩ => show e.val = if (1700000 : Nat) = 1 then 0 else e.val; rw [if_neg (by decide)]

/-- The column repeated along 32 columns reads at (e, j) the vector at e. -/
private theorem col_bcast32_apply (v : FVec Ideal S1700000 .f32) (h1 : S1700000.BroadcastsInDim S1700000x1 ![0])
    (h2 : S1700000x1.BroadcastsInDim S1700000x32 ![0, 1]) (e : Fin 1700000) (j : Fin 32) :
    broadcastInDim S1700000x32 ![0, 1] h2 (broadcastInDim S1700000x1 ![0] h1 v) (ix2 e j) = v (ix1 e) := by
  refine (broadcastInDim_apply _ h2 _ (ix2 e j) (ix2 e (0 : Fin 1)) (fun a => ?_)).trans (col_bcast_apply v h1 e 0)
  match a with
  | ⟨0, _⟩ => show e.val = if (1700000 : Nat) = 1 then 0 else e.val; rw [if_neg (by decide)]
  | ⟨1, _⟩ => show (0 : Nat) = if (1 : Nat) = 1 then 0 else j.val; rw [if_pos rfl]

/-- The vector reshaped to a column reads at (e, u) the vector at e. -/
private theorem col_cast_apply (v : FVec Ideal S1700000 .f32) (hc : S1700000.ShapeCasts S1700000x1)
    (e : Fin 1700000) (u : Fin 1) :
    shapeCast S1700000x1 v hc (ix2 e u) = v (ix1 e) :=
  shapeCast_apply v hc _ _ (by
    have hu : u.val = 0 := by omega
    rw [Shape.rowMajor_val_two, Shape.rowMajor_val_one]
    show e.val = e.val * 1 + u.val
    rw [hu, Nat.mul_one, Nat.add_zero])

/-! ### The matrix product read at an index -/

/-- The contraction's left and right indices at (p, q) and k are (p, k) and (k, q). -/
private theorem lidx32 (p : Fin 100000) (q : Fin 32) (k : Fin 32) : ReadP.lidx_main_v30 (ix2 p q) k = ix2 p k := by
  funext a; match a with | ⟨0, _⟩ => rfl | ⟨1, _⟩ => rfl
private theorem ridx32 (p : Fin 100000) (q : Fin 32) (k : Fin 32) : ReadP.ridx_main_v30 (ix2 p q) k = ix2 k q := by
  funext a; match a with | ⟨0, _⟩ => rfl | ⟨1, _⟩ => rfl
private theorem lidx1 (p : Fin 100000) (q : Fin 1) (k : Fin 32) : ReadP.lidx_main_v66 (ix2 p q) k = ix2 p k := by
  funext a; match a with | ⟨0, _⟩ => rfl | ⟨1, _⟩ => rfl
private theorem ridx1 (p : Fin 100000) (q : Fin 1) (k : Fin 32) : ReadP.ridx_main_v66 (ix2 p q) k = ix2 k q := by
  funext a; match a with | ⟨0, _⟩ => rfl | ⟨1, _⟩ => rfl

/-- The product into 32 features at (p, q) is the sum over k of a (p, k) · w (k, q). -/
private theorem dot32_apply (a : FVec Ideal S100000x32 .f32) (w : FVec Ideal S32x32 .f32) (p : Fin 100000) (q : Fin 32) :
    Host.dotGeneral dot_S100000x32_S32x32_S100000x32_1_0_0_1_n_n none a w (ix2 p q)
      = ∑ k : Fin 32, a (ix2 p k) * w (ix2 k q) := by
  refine (ReadP.val_main_v30_apply a w (ix2 p q)).trans ?_
  refine Finset.sum_congr rfl fun k _ => ?_
  rw [lidx32, ridx32]

/-- The product into one feature at (p, q) is the sum over k of a (p, k) · w (k, q). -/
private theorem dot1_apply (a : FVec Ideal S100000x32 .f32) (w : FVec Ideal S32x1 .f32) (p : Fin 100000) (q : Fin 1) :
    Host.dotGeneral dot_S100000x32_S32x1_S100000x1_1_0_0_1_n_n none a w (ix2 p q)
      = ∑ k : Fin 32, a (ix2 p k) * w (ix2 k q) := by
  simp only [Host.dotGeneral]
  rw [Ideal.dotGeneral_apply, ← Equiv.sum_comp (ValueIdx.contrEquiv1 dot_S100000x32_S32x1_S100000x1_1_0_0_1_n_n 32 rfl rfl).symm]
  refine Finset.sum_congr rfl fun k _ => ?_
  have hk := ValueIdx.contrEquiv1_symm_val dot_S100000x32_S32x1_S100000x1_1_0_0_1_n_n 32 rfl rfl k
  have el : dot_S100000x32_S32x1_S100000x1_1_0_0_1_n_n.lhsIdx (ix2 p q) ((ValueIdx.contrEquiv1 dot_S100000x32_S32x1_S100000x1_1_0_0_1_n_n 32 rfl rfl).symm k) = ix2 p k := funext fun a => Fin.ext (by
    match a with
    | ⟨0, _⟩ => exact ReadP.lhs_main_v66_0 _ _
    | ⟨1, _⟩ => exact (ReadP.lhs_main_v66_1 _ _).trans hk)
  have er : dot_S100000x32_S32x1_S100000x1_1_0_0_1_n_n.rhsIdx (ix2 p q) ((ValueIdx.contrEquiv1 dot_S100000x32_S32x1_S100000x1_1_0_0_1_n_n 32 rfl rfl).symm k) = ix2 k q := funext fun a => Fin.ext (by
    match a with
    | ⟨0, _⟩ => exact (ReadP.rhs_main_v66_0 _ _).trans hk
    | ⟨1, _⟩ => exact ReadP.rhs_main_v66_1 _ _)
  rw [el, er]

/-- The rectified, biased operand of a middle or last layer at (p, k). -/
private theorem relu_operand_apply (agg : FVec Ideal S100000x32 .f32) (b : FVec Ideal S32 .f32)
    (h0 : S_.BroadcastsInDim S100000x32 (![] : Fin 0 → Fin S100000x32.rank)) (h1 : S32.BroadcastsInDim S1x32 ![1])
    (h2 : S1x32.BroadcastsInDim S100000x32 ![0, 1]) (hc : S32.ShapeCasts S1x32) (p : Fin 100000) (k : Fin 32) :
    maximumf (addf agg (broadcastInDim S100000x32 ![0, 1] h2 (broadcastInDim S1x32 ![1] h1 b)))
        (broadcastInDim S100000x32 ![] h0 (constant (F := Ideal) S_ .f32 0x00000000#32)) (ix2 p k)
      = Cert.Spec.relu (agg (ix2 p k) + shapeCast S1x32 b hc (ix2 (0 : Fin 1) k)) := by
  have eb : broadcastInDim S100000x32 ![0, 1] h2 (broadcastInDim S1x32 ![1] h1 b) (ix2 p k)
      = shapeCast S1x32 b hc (ix2 (0 : Fin 1) k) := (row_bcast_apply b h1 h2 p k).trans (row_cast_apply b hc k).symm
  have ez := zero_splat_apply h0 (ix2 p k)
  show max (agg (ix2 p k) + broadcastInDim S100000x32 ![0, 1] h2 (broadcastInDim S1x32 ![1] h1 b) (ix2 p k))
      (broadcastInDim S100000x32 ![] h0 (constant (F := Ideal) S_ .f32 0x00000000#32) (ix2 p k))
    = max (agg (ix2 p k) + shapeCast S1x32 b hc (ix2 (0 : Fin 1) k)) 0
  rw [eb, ez]

/-! ### The statements -/

/-- The all-zero bias row the first linear layer is given (a zero splat reshaped to one row) is zero everywhere. -/
theorem zero_row (h0 : S_.BroadcastsInDim S32 (![] : Fin 0 → Fin S32.rank)) (hc : S32.ShapeCasts S1x32) :
    shapeCast S1x32 (broadcastInDim S32 ![] h0 (constant (F := Ideal) S_ .f32 0x00000000#32)) hc = fun _ => (0 : EReal) := by
  funext i
  obtain ⟨u, k, rfl⟩ : ∃ (u : Fin 1) (k : Fin 32), i = ix2 u k := ⟨i 0, i 1, eq_ix2 i⟩
  refine (shapeCast_a_1a_apply _ hc u k).trans ?_
  exact zero_splat_apply h0 (ix1 k)

/-- The first layer: a plain matrix product is the linear layer with a zero bias row and no activation. -/
theorem dot32_eq_dense_id (a : FVec Ideal S100000x32 .f32) (w : FVec Ideal S32x32 .f32) :
    Host.dotGeneral dot_S100000x32_S32x32_S100000x32_1_0_0_1_n_n none a w
      = Cert.Spec.dense32 id a (fun _ => (0 : EReal)) w := by
  funext i
  obtain ⟨p, q, rfl⟩ : ∃ (p : Fin 100000) (q : Fin 32), i = ix2 p q := ⟨i 0, i 1, eq_ix2 i⟩
  refine (dot32_apply a w p q).trans ?_
  unfold Cert.Spec.dense32
  refine Finset.sum_congr rfl fun k _ => ?_
  show a (ix2 p k) * w (ix2 k q) = (a (ix2 p k) + 0) * w (ix2 k q)
  rw [add_zero]

/-- A middle layer: bias broadcast along the rows, rectifier, matrix product into 32 features. -/
theorem dot32_eq_dense_relu (agg : FVec Ideal S100000x32 .f32) (b : FVec Ideal S32 .f32) (w : FVec Ideal S32x32 .f32)
    (h0 : S_.BroadcastsInDim S100000x32 (![] : Fin 0 → Fin S100000x32.rank)) (h1 : S32.BroadcastsInDim S1x32 ![1])
    (h2 : S1x32.BroadcastsInDim S100000x32 ![0, 1]) (hc : S32.ShapeCasts S1x32) :
    Host.dotGeneral dot_S100000x32_S32x32_S100000x32_1_0_0_1_n_n none
        (maximumf (addf agg (broadcastInDim S100000x32 ![0, 1] h2 (broadcastInDim S1x32 ![1] h1 b)))
          (broadcastInDim S100000x32 ![] h0 (constant (F := Ideal) S_ .f32 0x00000000#32))) w
      = Cert.Spec.dense32 Cert.Spec.relu agg (shapeCast S1x32 b hc) w := by
  funext i
  obtain ⟨p, q, rfl⟩ : ∃ (p : Fin 100000) (q : Fin 32), i = ix2 p q := ⟨i 0, i 1, eq_ix2 i⟩
  refine (dot32_apply _ w p q).trans ?_
  unfold Cert.Spec.dense32
  refine Finset.sum_congr rfl fun k _ => ?_
  exact congrArg (· * w (ix2 k q)) (relu_operand_apply agg b h0 h1 h2 hc p k)

/-- The last layer: the same into one feature. -/
theorem dot1_eq_dense_relu (agg : FVec Ideal S100000x32 .f32) (b : FVec Ideal S32 .f32) (w : FVec Ideal S32x1 .f32)
    (h0 : S_.BroadcastsInDim S100000x32 (![] : Fin 0 → Fin S100000x32.rank)) (h1 : S32.BroadcastsInDim S1x32 ![1])
    (h2 : S1x32.BroadcastsInDim S100000x32 ![0, 1]) (hc : S32.ShapeCasts S1x32) :
    Host.dotGeneral dot_S100000x32_S32x1_S100000x1_1_0_0_1_n_n none
        (maximumf (addf agg (broadcastInDim S100000x32 ![0, 1] h2 (broadcastInDim S1x32 ![1] h1 b)))
          (broadcastInDim S100000x32 ![] h0 (constant (F := Ideal) S_ .f32 0x00000000#32))) w
      = Cert.Spec.dense1 Cert.Spec.relu agg (shapeCast S1x32 b hc) w := by
  funext i
  obtain ⟨p, q, rfl⟩ : ∃ (p : Fin 100000) (q : Fin 1), i = ix2 p q := ⟨i 0, i 1, eq_ix2 i⟩
  refine (dot1_apply _ w p q).trans ?_
  unfold Cert.Spec.dense1
  refine Finset.sum_congr rfl fun k _ => ?_
  exact congrArg (· * w (ix2 k q)) (relu_operand_apply agg b h0 h1 h2 hc p k)

/-- Messages of 32 features times the per-edge coefficient broadcast along each row. -/
theorem mul_bcast_eq_scale32 (g : FVec Ideal S1700000x32 .f32) (nrm : FVec Ideal S1700000 .f32)
    (h1 : S1700000.BroadcastsInDim S1700000x1 ![0]) (h2 : S1700000x1.BroadcastsInDim S1700000x32 ![0, 1])
    (hc : S1700000.ShapeCasts S1700000x1) :
    mulf g (broadcastInDim S1700000x32 ![0, 1] h2 (broadcastInDim S1700000x1 ![0] h1 nrm))
      = Cert.Spec.scale32 g (shapeCast S1700000x1 nrm hc) := by
  funext i
  obtain ⟨e, j, rfl⟩ : ∃ (e : Fin 1700000) (j : Fin 32), i = ix2 e j := ⟨i 0, i 1, eq_ix2 i⟩
  show g (ix2 e j) * broadcastInDim S1700000x32 ![0, 1] h2 (broadcastInDim S1700000x1 ![0] h1 nrm) (ix2 e j)
    = g (ix2 e j) * shapeCast S1700000x1 nrm hc (ix2 e (0 : Fin 1))
  exact congrArg (g (ix2 e j) * ·) ((col_bcast32_apply nrm h1 h2 e j).trans (col_cast_apply nrm hc e 0).symm)

/-- Messages of one feature times the per-edge coefficient as a column. -/
theorem mul_bcast_eq_scale1 (g : FVec Ideal S1700000x1 .f32) (nrm : FVec Ideal S1700000 .f32)
    (h1 : S1700000.BroadcastsInDim S1700000x1 ![0]) (hc : S1700000.ShapeCasts S1700000x1) :
    mulf g (broadcastInDim S1700000x1 ![0] h1 nrm) = Cert.Spec.scale1 g (shapeCast S1700000x1 nrm hc) := by
  funext i
  obtain ⟨e, u, rfl⟩ : ∃ (e : Fin 1700000) (u : Fin 1), i = ix2 e u := ⟨i 0, i 1, eq_ix2 i⟩
  show g (ix2 e u) * broadcastInDim S1700000x1 ![0] h1 nrm (ix2 e u) = g (ix2 e u) * shapeCast S1700000x1 nrm hc (ix2 e u)
  exact congrArg (g (ix2 e u) * ·) ((col_bcast_apply nrm h1 e u).trans (col_cast_apply nrm hc e u).symm)

/-- The last bias, a one-entry vector: reshaped to [1, 1] it is the vector broadcast into [1, 1]. -/
theorem bias11 (b : FVec Ideal S1 .f32) (h1 : S1.BroadcastsInDim S1x1 ![1]) (hc : S1.ShapeCasts S1x1) :
    broadcastInDim S1x1 ![1] h1 b = shapeCast S1x1 b hc := by
  funext i
  obtain ⟨u, v, rfl⟩ : ∃ (u : Fin 1) (v : Fin 1), i = ix2 u v := ⟨i 0, i 1, eq_ix2 i⟩
  have el : broadcastInDim S1x1 ![1] h1 b (ix2 u v) = b (ix1 (0 : Fin 1)) :=
    broadcastInDim_apply _ h1 b (ix2 u v) (ix1 (0 : Fin 1)) (fun a => by
      match a with
      | ⟨0, _⟩ => show (0 : Nat) = if (1 : Nat) = 1 then 0 else v.val; rw [if_pos rfl])
  have er : shapeCast S1x1 b hc (ix2 u v) = b (ix1 (0 : Fin 1)) :=
    shapeCast_apply b hc _ _ (by
      have hu : u.val = 0 := by omega
      have hv : v.val = 0 := by omega
      rw [Shape.rowMajor_val_two, Shape.rowMajor_val_one]
      show (0 : Nat) = u.val * 1 + v.val
      rw [hu, hv])
  exact el.trans er.symm

end Cert.Bridge

end
-- ==== Proof.TakeValue.lean ====
/-
  The kernel's three row lookups `jnp.take(h, src, axis=0)` read as plain gathers.
  Each lookup wraps a negative index by the number of rows, gathers (the gather clamps its start), and then REPLACES the row
  by a fill word wherever the wrapped index lies outside [0, 99999]. When every source index is a node number,
  0 ≤ src[e] < 100000, no index is negative and none is out of range, so the in-range test is true at every edge, the
  replacement never happens, and the lookup is the gather at the wrapped indices: the value the reference's `h[src]` has.
-/
import proofs.«411567_j901943132623_2_alg».proof.Proof.Gen.KernelIdeal.Launch
import Idealize.ShloMosaic.Lib.StableHlo.Run
import Idealize.ShloMosaic.Lib.StableHlo.Predicate
import Idealize.ShloMosaic.Lib.ReduceAll
import Idealize.ShloMosaic.Lib.ValueIdx

set_option maxRecDepth 16384

noncomputable section

namespace Cert.KernelIdeal.TakeValue

open Cert.KernelIdeal Cert.KernelIdeal.Gen
open Idealize.ShloMosaic Idealize.ShloMosaic.TcCoe Idealize.ShloMosaic.ValueIdx Idealize.SL.Sem Idealize.ShloMosaic.StableHlo

/-- Every entry of an index vector over the 1 700 000 messages is a node number: 0 ≤ s[e] < 100000, read signed. -/
def InRange (s : IVec S1700000 32) : Prop := ∀ e : S1700000.Idx, 0 ≤ (s e).toInt ∧ (s e).toInt < 100000

/-- The column of start indices a row lookup gathers at: a negative index wrapped by the number of rows, then laid as a
    [1700000, 1] column (jnp's normalisation of an index before `stablehlo.gather`). -/
def startCol (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-! ## Typed references' transports

A typed reference moves contents between the value's type and the buffer's type along an equation of the two types; moving
there and back is the identity, whatever the equation is. -/

section Transport
variable {Val : EltTy → Type} {T : BufTy}

/-- Contents moved to the buffer's type and back are the contents. -/
private theorem ofBuf_toBuf (x : TRef sig T) (v : T.Contents Val) : x.ofBuf (x.toBuf v) = v := by
  obtain ⟨r, rfl, _, _⟩ := x
  rfl

end Transport

/-! ## The lookup's pure term

The in-range test and the replacement by the fill word, as functions of an index vector `s` alone: under `InRange s`
the wrap is the identity, every entry of the start column is a word below 100000, so both range comparisons are 1 at
every row, the reduction by `and` over the column's unit axis is 1 at every row, and the select returns its first
operand whatever the output shape is. -/

section PureTerm

/-- A word that reads, signed, as a number in [0, 100000) has that number as its value. -/
private theorem toNat_lt_of_toInt {x : BitVec 32} (h0 : 0 ≤ x.toInt) (h1 : x.toInt < 100000) : x.toNat < 100000 := by
  have key := BitVec.toInt_eq_toNat_cond x
  have hlt := x.isLt
  split at key <;> omega

/-- A left fold by `and` from 1 over one-bit words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1) (1#1) = 1#1 := by decide
    rw [List.foldl_cons, h a (List.mem_cons_self ..), e]
    exact foldl_andi_one f l fun n hn => h n (List.mem_cons_of_mem _ hn)

/-- A reduction by `and` from the initial value 1 of an array whose every entry is 1 is 1 at every result index
    (the converse of "a reduction by `and` that is 1 met only 1s"). -/
private theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ fun i _ => hx i

/-- A property every entry of an array has, every entry of a broadcast of it has: a broadcast only re-reads entries. -/
private theorem bcast_forall {α : Type} {s t : Shape} {dims : Fin s.rank → Fin t.rank} (h : s.BroadcastsInDim t dims)
    (x : s.Idx → α) (P : α → Prop) (hx : ∀ k, P (x k)) (j : t.Idx) : P (broadcastInDim t dims h x j) := hx _

/-- Under `InRange` no index is negative: the comparison with 0 is 0 at every entry, and the wrap returns the index. -/
private theorem wrap_eq (s : IVec S1700000 32) (h : InRange s) :
    select (cmpi .slt s (broadcastInDim S1700000 ![] bcast_S_S1700000 (constantI S_ 32 0#32)))
      (addi s (broadcastInDim S1700000 ![] bcast_S_S1700000 (constantI S_ 32 100000#32))) s = s := by
  funext e
  have hn : (s e).toNat < 100000 := toNat_lt_of_toInt (h e).1 (h e).2
  have hc : IntOp.cmpi .slt (s e) 0#32 = 0#1 :=
    eq_zero_of_ne_one fun hc => absurd ((Predicate.slt_iff_toNat (by omega) (by decide)).1 hc) (Nat.not_lt_zero _)
  show Scalar.select (IntOp.cmpi .slt (s e) 0#32) (IntOp.addi (s e) 100000#32) (s e) = s e
  rw [hc, select_zero]

/-- Every entry of the start column is a word below 100000. -/
private theorem startCol_lt (s : IVec S1700000 32) (h : InRange s) (i : S1700000x1.Idx) : (startCol s i).toNat < 100000 := by
  unfold startCol
  rw [wrap_eq s h]
  exact bcast_forall _ s (fun x => x.toNat < 100000) (fun k => toNat_lt_of_toInt (h k).1 (h k).2) i

/-- THE LOOKUP'S TERM. Whatever array `G` the gather produced and whatever the fill is, at any output shape the
    in-range mask is laid along: the select by the mask returns `G`. -/
private theorem take_term {α : Type} {t : Shape} {dims : Fin S1700000.rank → Fin t.rank} (hm : S1700000.BroadcastsInDim t dims)
    (s : IVec S1700000 32) (h : InRange s) (G fill : t.Idx → α) :
    select
      (broadcastInDim t dims hm
        (Host.reduce IntOp.andi
          (andi
            (cmpi .sge (startCol s) (broadcastInDim S1700000x1 ![] bcast_S_S1700000x1 (constantI S_ 32 0#32)))
            (cmpi .sle (startCol s) (broadcastInDim S1700000x1 ![0, 1] bcast_S1x1_S1700000x1_0_1
              (broadcastInDim S1x1 ![1] bcast_S1_S1x1_1 (constantI S1 32 99999#32)))))
          (constantI S_ 1 1#1) reducesTo_S1700000x1_S1700000_d1 h_S_))
      G fill = G := by
  funext j
  have hmask : ∀ i : S1700000x1.Idx,
      andi
        (cmpi .sge (startCol s) (broadcastInDim S1700000x1 ![] bcast_S_S1700000x1 (constantI S_ 32 0#32)))
        (cmpi .sle (startCol s) (broadcastInDim S1700000x1 ![0, 1] bcast_S1x1_S1700000x1_0_1
          (broadcastInDim S1x1 ![1] bcast_S1_S1x1_1 (constantI S1 32 99999#32)))) i = 1#1 := by
    intro i
    have hn := startCol_lt s h i
    show IntOp.andi (IntOp.cmpi .sge (startCol s i) 0#32) (IntOp.cmpi .sle (startCol s i) 99999#32) = 1#1
    refine IntOp.andi_eq_one.2 ⟨(Predicate.sge_iff_toNat (by omega) (by decide)).2 (Nat.zero_le _),
      (Predicate.sle_iff_toNat (by omega) (by decide)).2 ?_⟩
    show (startCol s i).toNat ≤ 99999
    omega
  rw [select_apply,
    bcast_forall hm _ (fun b => b = 1#1) (fun k => reduce_andi_one _ _ _ _ rfl hmask k) j, select_one]

end PureTerm

/-- The first lookup (`main_v34` from `main_v33` at `main_v5`), run from any buffer contents `W` whose source indices are
    node numbers: the gather of the table's rows at the wrapped indices. -/
theorem take1_value (W : Valuation τ sig (Elt Ideal)) (h : InRange (W (Proc.devRef .tc main_v5))) :
    StableHlo.after (hostOps1 (F := Ideal)) W (Proc.devRef .tc main_v34)
      = Host.gather gather_S100000x32_S1700000x1_S1700000x32_1_0_n_n_0_1_132 (W (Proc.devRef .tc main_v33))
          (startCol (W (Proc.devRef .tc main_v5))) := by
  -- the three transports that meet the given contents or the result are the identity: the buffers' types are the values'
  have eS : (TRef.of main_v5 : TRef sig ⟨S1700000, .i32⟩).ofBuf (W (Proc.devRef .tc main_v5)) = W (Proc.devRef .tc main_v5) := rfl
  have eH : (TRef.of main_v33 : TRef sig ⟨S100000x32, .f32⟩).ofBuf (W (Proc.devRef .tc main_v33)) = W (Proc.devRef .tc main_v33) := rfl
  have eO : ∀ v : (⟨S1700000x32, .f32⟩ : BufTy).Contents (Elt Ideal),
      (TRef.of main_v34 : TRef sig ⟨S1700000x32, .f32⟩).toBuf v = v := fun _ => rfl
  -- the 23 operations as one term over the source indices and the table, then the lookup's term
  after_results_simp
  simp only [ofBuf_toBuf]
  rw [eO, eS, eH]
  exact take_term bcast_S1700000_S1700000x32_0 (W (Proc.devRef .tc main_v5)) h _ _

/-- The second lookup (`main_v41` from `main_v40` at `main_v5`). -/
theorem take2_value (W : Valuation τ sig (Elt Ideal)) (h : InRange (W (Proc.devRef .tc main_v5))) :
    StableHlo.after (hostOps3 (F := Ideal)) W (Proc.devRef .tc main_v41)
      = Host.gather gather_S100000x32_S1700000x1_S1700000x32_1_0_n_n_0_1_132 (W (Proc.devRef .tc main_v40))
          (startCol (W (Proc.devRef .tc main_v5))) := by
  have eS : (TRef.of main_v5 : TRef sig ⟨S1700000, .i32⟩).ofBuf (W (Proc.devRef .tc main_v5)) = W (Proc.devRef .tc main_v5) := rfl
  have eH : (TRef.of main_v40 : TRef sig ⟨S100000x32, .f32⟩).ofBuf (W (Proc.devRef .tc main_v40)) = W (Proc.devRef .tc main_v40) := rfl
  have eO : ∀ v : (⟨S1700000x32, .f32⟩ : BufTy).Contents (Elt Ideal),
      (TRef.of main_v41 : TRef sig ⟨S1700000x32, .f32⟩).toBuf v = v := fun _ => rfl
  after_results_simp
  simp only [ofBuf_toBuf]
  rw [eO, eS, eH]
  exact take_term bcast_S1700000_S1700000x32_0 (W (Proc.devRef .tc main_v5)) h _ _

/-- The third lookup (`main_v48` from the one-column table `main_v47` at `main_v5`). -/
theorem take3_value (W : Valuation τ sig (Elt Ideal)) (h : InRange (W (Proc.devRef .tc main_v5))) :
    StableHlo.after (hostOps5 (F := Ideal)) W (Proc.devRef .tc main_v48)
      = Host.gather gather_S100000x1_S1700000x1_S1700000x1_1_0_n_n_0_1_11 (W (Proc.devRef .tc main_v47))
          (startCol (W (Proc.devRef .tc main_v5))) := by
  have eS : (TRef.of main_v5 : TRef sig ⟨S1700000, .i32⟩).ofBuf (W (Proc.devRef .tc main_v5)) = W (Proc.devRef .tc main_v5) := rfl
  have eH : (TRef.of main_v47 : TRef sig ⟨S100000x1, .f32⟩).ofBuf (W (Proc.devRef .tc main_v47)) = W (Proc.devRef .tc main_v47) := rfl
  have eO : ∀ v : (⟨S1700000x1, .f32⟩ : BufTy).Contents (Elt Ideal),
      (TRef.of main_v48 : TRef sig ⟨S1700000x1, .f32⟩).toBuf v = v := fun _ => rfl
  after_results_simp
  simp only [ofBuf_toBuf]
  rw [eO, eS, eH]
  exact take_term bcast_S1700000_S1700000x1_0 (W (Proc.devRef .tc main_v5)) h _ _

end Cert.KernelIdeal.TakeValue

end
-- ==== Proof.SrcRange.lean ====
/-
  The precondition's index conjunct, read: every source index of the message list is a node number.
  The message list's sources are the 1 600 000 entries of row 0 of `edge_index` followed by the 100 000 self loops
  0, 1, …, 99999. The precondition says 0 ≤ edge_index[0, e] < 100000 for every e (a reduce-by-and of the two signed
  compares); the self loops are node numbers by construction.
-/
import proofs.«411567_j901943132623_2_alg».proof.Defs
import proofs.«411567_j901943132623_2_alg».proof.Proof.Gen.KernelIdeal
import proofs.«411567_j901943132623_2_alg».proof.Proof.Gen.Pre_finite_inputs
import proofs.«411567_j901943132623_2_alg».proof.Proof.TakeValue
import Idealize.ShloMosaic.Lib.StableHlo.Predicate
import Idealize.ShloMosaic.Lib.ReduceAll
import Idealize.ShloMosaic.Lib.ValueIdx
import Idealize.ShloMosaic.Lib.Pipeline.Value

set_option maxRecDepth 16384

noncomputable section

namespace Cert.KernelIdeal.SrcRange

open Cert.KernelIdeal Cert.KernelIdeal.Gen Cert.KernelIdeal.TakeValue
open Idealize.ShloMosaic Idealize.ShloMosaic.TcCoe Idealize.ShloMosaic.ValueIdx Idealize.SL.Sem

/-- The source index of every message, as @main builds it from `edge_index` (row 0, then the self loops). -/
def srcOf (e1 : IVec S2x1600000 32) : IVec S1700000 32 :=
  concatenate S1700000 0
    [⟨S1600000, shapeCast S1600000 (extractStridedSlice S1x1600000 ![0, 0] e1 slices_S2x1600000_S1x1600000_0_0) shapeCasts_S1x1600000_S1600000⟩,
     ⟨S100000, iotaInDim S100000 32 0⟩] concatenates_S1600000_S100000_S1700000_d0

/-- A 32-bit word that passes the two signed compares `0 ≤ x` and `x < 100000` is a node number. -/
private theorem word_inRange (x : BitVec 32) (h0 : IntOp.cmpi .sge x 0#32 = 1#1)
    (h1 : IntOp.cmpi .slt x 100000#32 = 1#1) : 0 ≤ x.toInt ∧ x.toInt < 100000 := by
  have z : (0#32 : BitVec 32).toInt = 0 := by decide
  have k : (100000#32 : BitVec 32).toInt = 100000 := by decide
  simp only [IntOp.cmpi, StableHlo.Predicate.ofBool_eq_one_iff, BitVec.sle, BitVec.slt, decide_eq_true_eq, z, k] at h0 h1
  exact ⟨h0, h1⟩

/-- The precondition's last conjunct read at one entry: the reduce-by-and of the two compares over row 0 of
    `edge_index` is 1, so both compares are 1 at every entry, and the entry is a node number. -/
private theorem row_inRange [hPre : Cert.Pre_finite_inputs.Facts] (m : (ℓ : Loc nD τ sig) → Buf (Elt Ideal) ℓ)
    (hpre : Cert.Pre_KernelIdeal (hPre_finite_inputs := hPre) m) (c : Dev nD) (j : S1600000.Idx) :
    0 ≤ ((shapeCast S1600000 (extractStridedSlice S1x1600000 ![0, 0] (m ((c.tc : Thread nD τ).loc main_arg1))
            slices_S2x1600000_S1x1600000_0_0) shapeCasts_S1x1600000_S1600000) j).toInt
      ∧ ((shapeCast S1600000 (extractStridedSlice S1x1600000 ![0, 0] (m ((c.tc : Thread nD τ).loc main_arg1))
            slices_S2x1600000_S1x1600000_0_0) shapeCasts_S1x1600000_S1600000) j).toInt < 100000 := by
  have h := congrFun (hpre c) ValueIdx.ix0
  dsimp only [Cert.Pre_finite_inputs.fn, Cert.Pre_finite_inputs.fn_part1, Cert.Pre_finite_inputs.fn_part2] at h
  have hall := (IntOp.andi_eq_one.1 h).2
  -- the scalar shape has one index, so every entry of the row reduces into the result
  haveI : Subsingleton Cert.Pre_finite_inputs.S_.Idx := ⟨fun a b => funext fun d => d.elim0⟩
  have hj := Host.reduce_andi_all _ _ _ _ _ hall j
  obtain ⟨h0, h1⟩ := IntOp.andi_eq_one.1 hj
  exact word_inRange _ h0 h1

/-- Under the precondition every source index is a node number. -/
theorem src_inRange [hPre : Cert.Pre_finite_inputs.Facts] (m : (ℓ : Loc nD τ sig) → Buf (Elt Ideal) ℓ)
    (hpre : Cert.Pre_KernelIdeal (hPre_finite_inputs := hPre) m) (c : Dev nD) :
    InRange (srcOf (m ((c.tc : Thread nD τ).loc main_arg1))) := by
  intro e
  have hlt17 : (e 0).val < 1700000 := (e 0).isLt
  by_cases hlt : (e 0).val < 1600000
  · -- a position below 1 600 000 reads the reshaped row at that position
    have hL : srcOf (m ((c.tc : Thread nD τ).loc main_arg1)) e
        = (shapeCast S1600000 (extractStridedSlice S1x1600000 ![0, 0] (m ((c.tc : Thread nD τ).loc main_arg1))
            slices_S2x1600000_S1x1600000_0_0) shapeCasts_S1x1600000_S1600000) (ix1 ⟨(e 0).val, hlt⟩) :=
      concatenate_pair_apply_left (t := S1700000) (s₁ := S1600000) (s₂ := S100000) 0 _ _ _ e rfl (ix1 ⟨(e 0).val, hlt⟩) (fun b => by
        have hb : b = 0 := Subsingleton.elim _ _
        subst hb; rfl)
    rw [hL]
    exact row_inRange m hpre c _
  · -- a position p + 1 600 000 reads the self loop p, the word p itself
    have hp : (e 0).val - 1600000 < 100000 := by omega
    have hR : srcOf (m ((c.tc : Thread nD τ).loc main_arg1)) e
        = iotaInDim S100000 32 0 (ix1 ⟨(e 0).val - 1600000, hp⟩) :=
      concatenate_pair_apply_right (t := S1700000) (s₁ := S1600000) (s₂ := S100000) 0 _ _ _ e rfl rfl (ix1 ⟨(e 0).val - 1600000, hp⟩)
        (fun b hb => absurd (Subsingleton.elim _ _) hb)
        (by show (e 0).val - 1600000 + 1600000 = (e 0).val; omega)
    rw [hR]
    show 0 ≤ (BitVec.ofNat 32 ((e 0).val - 1600000)).toInt ∧ (BitVec.ofNat 32 ((e 0).val - 1600000)).toInt < 100000
    rw [StableHlo.Predicate.toInt_ofNat_small _ (by omega)]
    omega

end Cert.KernelIdeal.SrcRange

end
-- ==== Proof.Region0.lean ====
/-
  REGION 0 of the idealized kernel's @main as ONE function of the arrays it is entered with: the array the first linear layer writes, rows of `main_arg0` through the bias row `main_v32` and the weights `main_arg2`, no activation.
-/
import proofs.«411567_j901943132623_2_alg».proof.Proof.Gen.KernelIdeal.Frame
import proofs.«411567_j901943132623_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an index -/

/-- The left operand's index on its row axis is the output's row. -/
private theorem lin0_lhs_0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
/-- On its feature axis it is the contraction coordinate. -/
private theorem lin0_lhs_1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
/-- The right operand's index on its input-feature axis is the contraction coordinate. -/
private theorem lin0_rhs_0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
/-- On its output-feature axis it is the output's column. -/
private theorem lin0_rhs_1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- The bias row broadcast over the rows reads the bias at the column. -/
private theorem lin0_bias_apply (x1 : Vec Ideal S1x32 .f32) (p : Fin 5000) (k : Fin 32) :
    broadcastTo S5000x32 x1 broadcasts_S1x32_S5000x32 (ix2 p k) = x1 (ix2 (0 : Fin 1) k) :=
  broadcastTo_apply x1 broadcasts_S1x32_S5000x32 (ix2 p k) (ix2 (0 : Fin 1) k) (fun a => by
    match a with
    | ⟨0, _⟩ => rfl
    | ⟨1, _⟩ => rfl)

/-- ONE BLOCK of the layer: entry (p, q) of the product of the biased rows with the weights. -/
private theorem lin0_block_apply (x0 : Vec Ideal S5000x32 .f32) (x1 : Vec Ideal S1x32 .f32) (x7 : Vec Ideal S32x32 .f32)
    (p : Fin 5000) (q : Fin 32) :
    k0_pay1 (F := Ideal) x0 x1 x7 (ix2 p q) = ∑ k : Fin 32, (x0 (ix2 p k) + x1 (ix2 (0 : Fin 1) k)) * x7 (ix2 k q) := by
  unfold k0_pay1
  simp only [matmul, shapeCast_self]
  rw [Ideal.matmul_constant_zero_apply, ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 p q) ((contrEquiv1 dot_S5000x32_S32x32_S5000x32_1_0_0_1_n_n 32 rfl rfl).symm k) = ix2 p k := funext fun a => Fin.ext (by
    match a with
    | ⟨0, _⟩ => exact lin0_lhs_0 _ _
    | ⟨1, _⟩ => exact (lin0_lhs_1 _ _).trans hk)
  have er : dot_S5000x32_S32x32_S5000x32_1_0_0_1_n_n.rhsIdx (ix2 p q) ((contrEquiv1 dot_S5000x32_S32x32_S5000x32_1_0_0_1_n_n 32 rfl rfl).symm k) = ix2 k q := funext fun a => Fin.ext (by
    match a with
    | ⟨0, _⟩ => exact (lin0_rhs_0 _ _).trans hk
    | ⟨1, _⟩ => exact lin0_rhs_1 _ _)
  rw [el, er]
  show (x0 (ix2 p k) + broadcastTo S5000x32 x1 broadcasts_S1x32_S5000x32 (ix2 p k)) * x7 (ix2 k q) = _
  rw [lin0_bias_apply]

/-! ## The windows' blocks over the grid -/

private theorem lin0_zeros : (![0, 0] : Fin 2 → Nat) = fun _ => 0 := funext fun a => by fin_cases a <;> rfl

/-- The printed index maps, decided over the 20 points: the row windows (the input rows, the output) sit at block
    `t` of the row axis and block 0 of the feature axis; the bias row and the weights are whole, at block 0. -/
private theorem lin0_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every one of the 20 row blocks is some point's. -/
private theorem lin0_block_onto : ∀ b : Fin 20, ∃ t : Fin cfg0.N, win0_3.index t (0 : Fin 2) = b.val ∧ win0_3.index t (1 : Fin 2) = 0 :=
  (by decide +kernel : ∀ b : Fin 20, ∃ t : Fin grid0.N, win0_3.index t (0 : Fin 2) = b.val ∧ win0_3.index t (1 : Fin 2) = 0)

/-- The input rows' block at point `t`, at (p, k), is the array's row `5000 t + p` at feature k. -/
private theorem lin0_rows_read (c : Dev nD) (t : Fin cfg0.N) (p : Fin 5000) (k : Fin 32) (r : Fin 100000)
    (hr : r.val = t.val * 5000 + p.val) :
    (iblk0 (F := Ideal) V c 0 t : Vec Ideal S5000x32 .f32) (ix2 p k) = (V c main_arg0 : S100000x32.Idx → EReal) (ix2 r k) := by
  obtain ⟨e0, e1, -⟩ := lin0_block_indices t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 32 + 1 * k.val = k.val; rw [e1]; omega

/-- The bias window's block is the whole bias row at every point. -/
private theorem lin0_bias_read (c : Dev nD) (t : Fin cfg0.N) (k : Fin 32) :
    (iblk0 (F := Ideal) V c 1 t : Vec Ideal S1x32 .f32) (ix2 (0 : Fin 1) k) = (V c main_v32 : S1x32.Idx → EReal) (ix2 (0 : Fin 1) k) := by
  obtain ⟨-, -, e0, e1, -⟩ := lin0_block_indices t
  show V c main_v32 (((cfg0.win 1).blk t).view.emb (ix2 (0 : Fin 1) k)) = V c main_v32 (ix2 (0 : Fin 1) k)
  refine congrArg (V c main_v32) (funext fun a => Fin.ext ?_)
  match a with
  | ⟨0, _⟩ => show win0_1.index t (0 : Fin 2) * 1 + 1 * 0 = 0; rw [e0]
  | ⟨1, _⟩ => show win0_1.index t (1 : Fin 2) * 32 + 1 * k.val = k.val; rw [e1]; omega

/-- The weight window's block is the whole weight matrix at every point. -/
private theorem lin0_weights_read (c : Dev nD) (t : Fin cfg0.N) (k : Fin 32) (q : Fin 32) :
    (iblk0 (F := Ideal) V c 2 t : Vec Ideal S32x32 .f32) (ix2 k q) = (V c main_arg2 : S32x32.Idx → EReal) (ix2 k q) := by
  obtain ⟨-, -, -, -, e0, e1, -⟩ := lin0_block_indices t
  show V c main_arg2 (((cfg0.win 2).blk t).view.emb (ix2 k q)) = V c main_arg2 (ix2 k q)
  refine congrArg (V c main_arg2) (funext fun a => Fin.ext ?_)
  match a with
  | ⟨0, _⟩ => show win0_2.index t (0 : Fin 2) * 32 + 1 * k.val = k.val; rw [e0]; omega
  | ⟨1, _⟩ => show win0_2.index t (1 : Fin 2) * 32 + 1 * q.val = q.val; rw [e1]; omega

/-! ## From the blocks to the array -/

/-- WHAT POINT `t` WRITES BACK is block `t` of the layer's array. -/
private theorem lin0_flushed (c : Dev nD) (t : Fin cfg0.N) :
    (dat0 (F := Ideal) V c).flushed 3 t
      = ((cfg0.win 3).blk t).view.read (Elt Ideal) (Cert.Spec.dense32 id (V c main_arg0) (V c main_v32) (V c main_arg2)) := by
  show (cfg0.win 3).cut (grid0.coords t) ((dat0 (F := Ideal) V c).after 3 t) = _
  rw [after0_3]
  unfold out0_3
  rw [View.canon_unit_zero lin0_zeros]
  simp only [View.ld_unit_zero (S := S5000x32) lin0_zeros, View.ld_unit_zero (S := S1x32) lin0_zeros, View.ld_unit_zero (S := S32x32) lin0_zeros]
  funext j
  obtain ⟨p, q, rfl⟩ : ∃ (p : Fin 5000) (q : Fin 32), j = ix2 p q := ⟨j 0, j 1, eq_ix2 j⟩
  obtain ⟨-, -, -, -, -, -, e0, e1⟩ := lin0_block_indices t
  show k0_pay1 (F := Ideal) (iblk0 V c 0 t) (iblk0 V c 1 t) (iblk0 V c 2 t) (ix2 p q)
      = Cert.Spec.dense32 id (V c main_arg0) (V c main_v32) (V c main_arg2) (((cfg0.win 3).blk t).view.emb (ix2 p q))
  refine (lin0_block_apply _ _ _ p q).trans ?_
  refine Finset.sum_congr rfl fun k _ => ?_
  have h0 := lin0_rows_read V c t p k ((((cfg0.win 3).blk t).view.emb (ix2 p q)) 0) (by
    show win0_3.index t (0 : Fin 2) * 5000 + 1 * p.val = t.val * 5000 + p.val; rw [e0]; omega)
  have h1 := lin0_bias_read V c t k
  have hq : ((((cfg0.win 3).blk t).view.emb (ix2 p q)) 1 : Fin 32) = q := Fin.ext (by
    show win0_3.index t (1 : Fin 2) * 32 + 1 * q.val = q.val; rw [e1]; omega)
  have h2 := lin0_weights_read V c t k q
  rw [h0, h1, h2, hq]
  rfl

/-- An index of the array is in point `t`'s block iff each coordinate is in the block's range on its axis. -/
private theorem lin0_mem_block (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v33).slice (win0_3.rect t)).set ↔ _
  rw [View.set_slice_whole, Rect.mem_set_unit]
  exact Iff.rfl

/-- The 20 row blocks tile the array: row `r` lies in block `r / 5000`. -/
private theorem lin0_cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, b0, b1⟩ := lin0_block_onto ⟨(i 0).val / 5000, by omega⟩
  have b0' : win0_3.index t (0 : Fin 2) = (i 0).val / 5000 := b0
  refine ⟨t, flush0_3 t, ?_⟩
  rw [lin0_mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 32 ≤ (i 1).val ∧ (i 1).val < win0_3.index t (1 : Fin 2) * 32 + 32; omega

/-- THE ARRAY the first linear layer leaves: every row of `main_arg0` plus the bias row, times the weights. -/
theorem region0_array (c : Dev nD) :
    (dat0 (F := Ideal) V c).arrAt 3 cfg0.N = Cert.Spec.dense32 id (V c main_arg0) (V c main_v32) (V c main_arg2) :=
  (dat0 (F := Ideal) V c).arrAt_eq_of_cover 3 _ (fun t _ => lin0_flushed V c t) lin0_cover

end Cert.KernelIdeal.RegionValue

end
-- ==== Proof.Region1.lean ====
/-
  REGION 1 of the idealized kernel's @main as ONE function of the arrays it is entered with: the array the first scaling writes, each edge row of `main_v34` times that edge's coefficient in `main_v30`.
-/
import proofs.«411567_j901943132623_2_alg».proof.Proof.Gen.KernelIdeal.Frame
import proofs.«411567_j901943132623_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The scaling body at an index of its block -/

/-- The two zero offsets of a whole-block access, spelt as the constant function. -/
private theorem zero_offsets1 : (![0, 0] : Fin 2 → Nat) = fun _ => 0 := funext fun a => by fin_cases a <;> rfl

/-- The body's product at an index `j` of a block: the row's entry times the row's coefficient (the coefficient
    column is broadcast along the features; the casts to the same shape change nothing). -/
private theorem scale_body1_at (x0 : Vec Ideal S5000x32 .f32) (x2 : Vec Ideal S5000x1 .f32) (j : S5000x32.Idx) :
    k1_pay1 (F := Ideal) x0 x2 j = x0 j * x2 (ix2 (j 0) (0 : Fin 1)) := by
  unfold k1_pay1
  simp only [shapeCast_self]
  refine (mulf_apply _ _ _).trans ?_
  exact congrArg (x0 j * ·) (broadcastTo_apply x2 _ j (ix2 (j 0) (0 : Fin 1)) (fun a => by
    match a with
    | ⟨0, _⟩ => rfl
    | ⟨1, _⟩ => rfl))

/-! ## Where the blocks sit -/

/-- The index maps over the 340 grid points: at point `t` the row block, the coefficient block and the output
    block are all block `t` along the rows and block 0 along the features. -/
private theorem block_index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The row block at point `t` read at `y`: the array `main_v34` at the block's element. -/
private theorem rows_block1 (c : Dev nD) (t : Fin cfg1.N) (y : S5000x32.Idx) :
    iblk1 (F := Ideal) V c 0 t y = V c main_v34 (((cfg1.win 0).blk t).view.emb y) := rfl

/-- The coefficient block at point `t` read at `y`: the array `main_v30` at the block's element. -/
private theorem coeff_block1 (c : Dev nD) (t : Fin cfg1.N) (y : S5000x1.Idx) :
    iblk1 (F := Ideal) V c 1 t y = V c main_v30 (((cfg1.win 1).blk t).view.emb y) := rfl

/-- Element `j` of what the body leaves at point `t` is the scaled array at the element of `main_v35` that block `t`
    puts `j` on: the row block and the output block sit on the same rows, and the coefficient block on the same rows
    of the one-column array. -/
private theorem scaled_at1 (c : Dev nD) (t : Fin cfg1.N) (j : S5000x32.Idx) :
    k1_pay1 (F := Ideal) (iblk1 V c 0 t) (iblk1 V c 1 t) j
      = Cert.Spec.scale32 (V c main_v34) (V c main_v30) (((cfg1.win 2).blk t).view.emb j) := by
  obtain ⟨e0, e1, e2, e3, e4, e5⟩ := block_index1 t
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 32 + 1 * (j 1).val = win1_2.index t (1 : Fin 2) * 32 + 1 * (j 1).val; omega
  have h1 : ((cfg1.win 1).blk t).view.emb (ix2 (j 0) (0 : Fin 1) : S5000x1.Idx)
      = ix2 ((((cfg1.win 2).blk t).view.emb j) 0) (0 : Fin 1) := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 1 + 1 * 0 = 0; omega
  refine (scale_body1_at _ _ j).trans ?_
  rw [rows_block1, coeff_block1, h0, h1]
  rfl

/-- WHAT POINT `t` WRITES BACK is block `t` of the scaled array: rows `5000 t … 5000 t + 4999` of `main_v34`, each
    times its coefficient in `main_v30`. -/
private theorem scaled_block1 (c : Dev nD) (t : Fin cfg1.N) :
    (dat1 (F := Ideal) V c).flushed 2 t
      = ((cfg1.win 2).blk t).view.read (Elt Ideal) (Cert.Spec.scale32 (V c main_v34) (V c main_v30)) := by
  show (cfg1.win 2).cut (grid1.coords t) ((dat1 V c).after 2 t) = _
  rw [after1_2]
  unfold out1_2
  rw [View.canon_unit_zero zero_offsets1]
  simp only [View.ld_unit_zero (S := S5000x32) zero_offsets1, View.ld_unit_zero (S := S5000x1) zero_offsets1]
  funext j
  exact scaled_at1 V c t j

/-! ## The blocks tile the array -/

/-- An element of `main_v35` is in point `t`'s block iff each coordinate is in the block's range on its axis. -/
private theorem mem_block1 (t : Fin cfg1.N) (i : S1700000x32.Idx) :
    i ∈ ((cfg1.win 2).blk t).view.set ↔ ∀ a : Fin 2, win1_2.index t a * S5000x32.size a ≤ (i a).val
      ∧ (i a).val < win1_2.index t a * S5000x32.size a + S5000x32.size a := by
  show i ∈ ((View.whole main_v35).slice (win1_2.rect t)).set ↔ _
  rw [View.set_slice_whole, Rect.mem_set_unit]
  exact Iff.rfl

/-- Row `r` lies in the block of point `r / 5000`: the 340 blocks of 5000 rows tile the 1700000 rows. -/
private theorem rows_covered1 (i : S1700000x32.Idx) :
    ∃ t : Fin cfg1.N, (cfg1.win 2).flush t = true ∧ i ∈ ((cfg1.win 2).blk t).view.set := by
  have hi0 : (i 0).val < 1700000 := (i 0).isLt
  have hi1 : (i 1).val < 32 := (i 1).isLt
  have ht : (i 0).val / 5000 < 340 := by omega
  refine ⟨⟨(i 0).val / 5000, ht⟩, flush1_2 _, ?_⟩
  obtain ⟨e0, e1, e2, e3, e4, e5⟩ := block_index1 ⟨(i 0).val / 5000, ht⟩
  rw [mem_block1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 32 ≤ (i 1).val
      ∧ (i 1).val < win1_2.index ⟨(i 0).val / 5000, ht⟩ (1 : Fin 2) * 32 + 32
    rw [e5]; omega

/-! ## The array the region leaves -/

/-- Every point writes back its block of the scaled array and the blocks tile `main_v35`, so the region leaves the
    scaled array. -/
theorem region1_array (c : Dev nD) :
    (dat1 (F := Ideal) V c).arrAt 2 cfg1.N = Cert.Spec.scale32 (V c main_v34) (V c main_v30) := by
  exact (dat1 (F := Ideal) V c).arrAt_eq_of_cover 2 _ (fun t _ => scaled_block1 V c t) rows_covered1

end Cert.KernelIdeal.RegionValue

end
-- ==== Proof.Region2.lean ====
/-
  REGION 2 of the idealized kernel's @main as ONE function of the arrays it is entered with: the array the second linear layer writes, rows of `main_v38` through the bias row `main_v39`, the rectifier and the weights `main_arg4`.
-/
import proofs.«411567_j901943132623_2_alg».proof.Proof.Gen.KernelIdeal.Frame
import proofs.«411567_j901943132623_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an index -/

/-- The left operand's index on its row axis is the output's row. -/
private theorem lin2_lhs_0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
/-- On its feature axis it is the contraction coordinate. -/
private theorem lin2_lhs_1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
/-- The right operand's index on its input-feature axis is the contraction coordinate. -/
private theorem lin2_rhs_0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
/-- On its output-feature axis it is the output's column. -/
private theorem lin2_rhs_1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- The bias row broadcast over the rows reads the bias at the column. -/
private theorem lin2_bias_apply (x1 : Vec Ideal S1x32 .f32) (p : Fin 5000) (k : Fin 32) :
    broadcastTo S5000x32 x1 broadcasts_S1x32_S5000x32 (ix2 p k) = x1 (ix2 (0 : Fin 1) k) :=
  broadcastTo_apply x1 broadcasts_S1x32_S5000x32 (ix2 p k) (ix2 (0 : Fin 1) k) (fun a => by
    match a with
    | ⟨0, _⟩ => rfl
    | ⟨1, _⟩ => rfl)

/-- ONE BLOCK of the layer: entry (p, q) of the product of the rectified biased rows with the weights; the rectifier's
    zero splat is the extended real `0`, so `max · 0` is `Cert.Spec.relu`. -/
private theorem lin2_block_apply (x0 : Vec Ideal S5000x32 .f32) (x1 : Vec Ideal S1x32 .f32) (x7 : Vec Ideal S32x32 .f32)
    (p : Fin 5000) (q : Fin 32) :
    k2_pay1 (F := Ideal) x0 x1 x7 (ix2 p q) = ∑ k : Fin 32, Cert.Spec.relu (x0 (ix2 p k) + x1 (ix2 (0 : Fin 1) k)) * x7 (ix2 k q) := by
  unfold k2_pay1
  simp only [matmul, shapeCast_self]
  rw [Ideal.matmul_constant_zero_apply, ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 p q) ((contrEquiv1 dot_S5000x32_S32x32_S5000x32_1_0_0_1_n_n 32 rfl rfl).symm k) = ix2 p k := funext fun a => Fin.ext (by
    match a with
    | ⟨0, _⟩ => exact lin2_lhs_0 _ _
    | ⟨1, _⟩ => exact (lin2_lhs_1 _ _).trans hk)
  have er : dot_S5000x32_S32x32_S5000x32_1_0_0_1_n_n.rhsIdx (ix2 p q) ((contrEquiv1 dot_S5000x32_S32x32_S5000x32_1_0_0_1_n_n 32 rfl rfl).symm k) = ix2 k q := funext fun a => Fin.ext (by
    match a with
    | ⟨0, _⟩ => exact (lin2_rhs_0 _ _).trans hk
    | ⟨1, _⟩ => exact lin2_rhs_1 _ _)
  rw [el, er]
  show max (x0 (ix2 p k) + broadcastTo S5000x32 x1 broadcasts_S1x32_S5000x32 (ix2 p k)) (Ideal.ofBits .f32 0x00000000#32) * x7 (ix2 k q) = _
  rw [lin2_bias_apply, Ideal.ofBits_zero_f32]
  rfl

/-! ## The windows' blocks over the grid -/

private theorem lin2_zeros : (![0, 0] : Fin 2 → Nat) = fun _ => 0 := funext fun a => by fin_cases a <;> rfl

/-- The printed index maps, decided over the 20 points: the row windows (the input rows, the output) sit at block
    `t` of the row axis and block 0 of the feature axis; the bias row and the weights are whole, at block 0. -/
private theorem lin2_block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every one of the 20 row blocks is some point's. -/
private theorem lin2_block_onto : ∀ b : Fin 20, ∃ t : Fin cfg2.N, win2_3.index t (0 : Fin 2) = b.val ∧ win2_3.index t (1 : Fin 2) = 0 :=
  (by decide +kernel : ∀ b : Fin 20, ∃ t : Fin grid2.N, win2_3.index t (0 : Fin 2) = b.val ∧ win2_3.index t (1 : Fin 2) = 0)

/-- The input rows' block at point `t`, at (p, k), is the array's row `5000 t + p` at feature k. -/
private theorem lin2_rows_read (c : Dev nD) (t : Fin cfg2.N) (p : Fin 5000) (k : Fin 32) (r : Fin 100000)
    (hr : r.val = t.val * 5000 + p.val) :
    (iblk2 (F := Ideal) V c 0 t : Vec Ideal S5000x32 .f32) (ix2 p k) = (V c main_v38 : S100000x32.Idx → EReal) (ix2 r k) := by
  obtain ⟨e0, e1, -⟩ := lin2_block_indices t
  show V c main_v38 (((cfg2.win 0).blk t).view.emb (ix2 p k)) = V c main_v38 (ix2 r k)
  refine congrArg (V c main_v38) (funext fun a => Fin.ext ?_)
  match a with
  | ⟨0, _⟩ => show win2_0.index t (0 : Fin 2) * 5000 + 1 * p.val = r.val; rw [e0, hr]; omega
  | ⟨1, _⟩ => show win2_0.index t (1 : Fin 2) * 32 + 1 * k.val = k.val; rw [e1]; omega

/-- The bias window's block is the whole bias row at every point. -/
private theorem lin2_bias_read (c : Dev nD) (t : Fin cfg2.N) (k : Fin 32) :
    (iblk2 (F := Ideal) V c 1 t : Vec Ideal S1x32 .f32) (ix2 (0 : Fin 1) k) = (V c main_v39 : S1x32.Idx → EReal) (ix2 (0 : Fin 1) k) := by
  obtain ⟨-, -, e0, e1, -⟩ := lin2_block_indices t
  show V c main_v39 (((cfg2.win 1).blk t).view.emb (ix2 (0 : Fin 1) k)) = V c main_v39 (ix2 (0 : Fin 1) k)
  refine congrArg (V c main_v39) (funext fun a => Fin.ext ?_)
  match a with
  | ⟨0, _⟩ => show win2_1.index t (0 : Fin 2) * 1 + 1 * 0 = 0; rw [e0]
  | ⟨1, _⟩ => show win2_1.index t (1 : Fin 2) * 32 + 1 * k.val = k.val; rw [e1]; omega

/-- The weight window's block is the whole weight matrix at every point. -/
private theorem lin2_weights_read (c : Dev nD) (t : Fin cfg2.N) (k : Fin 32) (q : Fin 32) :
    (iblk2 (F := Ideal) V c 2 t : Vec Ideal S32x32 .f32) (ix2 k q) = (V c main_arg4 : S32x32.Idx → EReal) (ix2 k q) := by
  obtain ⟨-, -, -, -, e0, e1, -⟩ := lin2_block_indices t
  show V c main_arg4 (((cfg2.win 2).blk t).view.emb (ix2 k q)) = V c main_arg4 (ix2 k q)
  refine congrArg (V c main_arg4) (funext fun a => Fin.ext ?_)
  match a with
  | ⟨0, _⟩ => show win2_2.index t (0 : Fin 2) * 32 + 1 * k.val = k.val; rw [e0]; omega
  | ⟨1, _⟩ => show win2_2.index t (1 : Fin 2) * 32 + 1 * q.val = q.val; rw [e1]; omega

/-! ## From the blocks to the array -/

/-- WHAT POINT `t` WRITES BACK is block `t` of the layer's array. -/
private theorem lin2_flushed (c : Dev nD) (t : Fin cfg2.N) :
    (dat2 (F := Ideal) V c).flushed 3 t
      = ((cfg2.win 3).blk t).view.read (Elt Ideal) (Cert.Spec.dense32 Cert.Spec.relu (V c main_v38) (V c main_v39) (V c main_arg4)) := by
  show (cfg2.win 3).cut (grid2.coords t) ((dat2 (F := Ideal) V c).after 3 t) = _
  rw [after2_3]
  unfold out2_3
  rw [View.canon_unit_zero lin2_zeros]
  simp only [View.ld_unit_zero (S := S5000x32) lin2_zeros, View.ld_unit_zero (S := S1x32) lin2_zeros, View.ld_unit_zero (S := S32x32) lin2_zeros]
  funext j
  obtain ⟨p, q, rfl⟩ : ∃ (p : Fin 5000) (q : Fin 32), j = ix2 p q := ⟨j 0, j 1, eq_ix2 j⟩
  obtain ⟨-, -, -, -, -, -, e0, e1⟩ := lin2_block_indices t
  show k2_pay1 (F := Ideal) (iblk2 V c 0 t) (iblk2 V c 1 t) (iblk2 V c 2 t) (ix2 p q)
      = Cert.Spec.dense32 Cert.Spec.relu (V c main_v38) (V c main_v39) (V c main_arg4) (((cfg2.win 3).blk t).view.emb (ix2 p q))
  refine (lin2_block_apply _ _ _ p q).trans ?_
  refine Finset.sum_congr rfl fun k _ => ?_
  have h0 := lin2_rows_read V c t p k ((((cfg2.win 3).blk t).view.emb (ix2 p q)) 0) (by
    show win2_3.index t (0 : Fin 2) * 5000 + 1 * p.val = t.val * 5000 + p.val; rw [e0]; omega)
  have h1 := lin2_bias_read V c t k
  have hq : ((((cfg2.win 3).blk t).view.emb (ix2 p q)) 1 : Fin 32) = q := Fin.ext (by
    show win2_3.index t (1 : Fin 2) * 32 + 1 * q.val = q.val; rw [e1]; omega)
  have h2 := lin2_weights_read V c t k q
  rw [h0, h1, h2, hq]

/-- An index of the array is in point `t`'s block iff each coordinate is in the block's range on its axis. -/
private theorem lin2_mem_block (t : Fin cfg2.N) (i : S100000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v40).slice (win2_3.rect t)).set ↔ _
  rw [View.set_slice_whole, Rect.mem_set_unit]
  exact Iff.rfl

/-- The 20 row blocks tile the array: row `r` lies in block `r / 5000`. -/
private theorem lin2_cover (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  obtain ⟨t, b0, b1⟩ := lin2_block_onto ⟨(i 0).val / 5000, by omega⟩
  have b0' : win2_3.index t (0 : Fin 2) = (i 0).val / 5000 := b0
  refine ⟨t, flush2_3 t, ?_⟩
  rw [lin2_mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 32 ≤ (i 1).val ∧ (i 1).val < win2_3.index t (1 : Fin 2) * 32 + 32; omega

/-- THE ARRAY the second linear layer leaves: every row of `main_v38` plus the bias row, rectified, times the weights. -/
theorem region2_array (c : Dev nD) :
    (dat2 (F := Ideal) V c).arrAt 3 cfg2.N = Cert.Spec.dense32 Cert.Spec.relu (V c main_v38) (V c main_v39) (V c main_arg4) :=
  (dat2 (F := Ideal) V c).arrAt_eq_of_cover 3 _ (fun t _ => lin2_flushed V c t) lin2_cover

end Cert.KernelIdeal.RegionValue

end
-- ==== Proof.Region3.lean ====
/-
  REGION 3 of the idealized kernel's @main as ONE function of the arrays it is entered with: the array the second scaling writes, each edge row of `main_v41` times that edge's coefficient in `main_v30`.
-/
import proofs.«411567_j901943132623_2_alg».proof.Proof.Gen.KernelIdeal.Frame
import proofs.«411567_j901943132623_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The scaling body at an index of its block -/

/-- The two zero offsets of a whole-block access, spelt as the constant function. -/
private theorem zero_offsets3 : (![0, 0] : Fin 2 → Nat) = fun _ => 0 := funext fun a => by fin_cases a <;> rfl

/-- The body's product at an index `j` of a block: the row's entry times the row's coefficient (the coefficient
    column is broadcast along the features; the casts to the same shape change nothing). -/
private theorem scale_body3_at (x0 : Vec Ideal S5000x32 .f32) (x2 : Vec Ideal S5000x1 .f32) (j : S5000x32.Idx) :
    k3_pay1 (F := Ideal) x0 x2 j = x0 j * x2 (ix2 (j 0) (0 : Fin 1)) := by
  unfold k3_pay1
  simp only [shapeCast_self]
  refine (mulf_apply _ _ _).trans ?_
  exact congrArg (x0 j * ·) (broadcastTo_apply x2 _ j (ix2 (j 0) (0 : Fin 1)) (fun a => by
    match a with
    | ⟨0, _⟩ => rfl
    | ⟨1, _⟩ => rfl))

/-! ## Where the blocks sit -/

/-- The index maps over the 340 grid points: at point `t` the row block, the coefficient block and the output
    block are all block `t` along the rows and block 0 along the features. -/
private theorem block_index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The row block at point `t` read at `y`: the array `main_v41` at the block's element. -/
private theorem rows_block3 (c : Dev nD) (t : Fin cfg3.N) (y : S5000x32.Idx) :
    iblk3 (F := Ideal) V c 0 t y = V c main_v41 (((cfg3.win 0).blk t).view.emb y) := rfl

/-- The coefficient block at point `t` read at `y`: the array `main_v30` at the block's element. -/
private theorem coeff_block3 (c : Dev nD) (t : Fin cfg3.N) (y : S5000x1.Idx) :
    iblk3 (F := Ideal) V c 1 t y = V c main_v30 (((cfg3.win 1).blk t).view.emb y) := rfl

/-- Element `j` of what the body leaves at point `t` is the scaled array at the element of `main_v42` that block `t`
    puts `j` on: the row block and the output block sit on the same rows, and the coefficient block on the same rows
    of the one-column array. -/
private theorem scaled_at3 (c : Dev nD) (t : Fin cfg3.N) (j : S5000x32.Idx) :
    k3_pay1 (F := Ideal) (iblk3 V c 0 t) (iblk3 V c 1 t) j
      = Cert.Spec.scale32 (V c main_v41) (V c main_v30) (((cfg3.win 2).blk t).view.emb j) := by
  obtain ⟨e0, e1, e2, e3, e4, e5⟩ := block_index3 t
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 32 + 1 * (j 1).val = win3_2.index t (1 : Fin 2) * 32 + 1 * (j 1).val; omega
  have h1 : ((cfg3.win 1).blk t).view.emb (ix2 (j 0) (0 : Fin 1) : S5000x1.Idx)
      = ix2 ((((cfg3.win 2).blk t).view.emb j) 0) (0 : Fin 1) := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 1 + 1 * 0 = 0; omega
  refine (scale_body3_at _ _ j).trans ?_
  rw [rows_block3, coeff_block3, h0, h1]
  rfl

/-- WHAT POINT `t` WRITES BACK is block `t` of the scaled array: rows `5000 t … 5000 t + 4999` of `main_v41`, each
    times its coefficient in `main_v30`. -/
private theorem scaled_block3 (c : Dev nD) (t : Fin cfg3.N) :
    (dat3 (F := Ideal) V c).flushed 2 t
      = ((cfg3.win 2).blk t).view.read (Elt Ideal) (Cert.Spec.scale32 (V c main_v41) (V c main_v30)) := by
  show (cfg3.win 2).cut (grid3.coords t) ((dat3 V c).after 2 t) = _
  rw [after3_2]
  unfold out3_2
  rw [View.canon_unit_zero zero_offsets3]
  simp only [View.ld_unit_zero (S := S5000x32) zero_offsets3, View.ld_unit_zero (S := S5000x1) zero_offsets3]
  funext j
  exact scaled_at3 V c t j

/-! ## The blocks tile the array -/

/-- An element of `main_v42` is in point `t`'s block iff each coordinate is in the block's range on its axis. -/
private theorem mem_block3 (t : Fin cfg3.N) (i : S1700000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v42).slice (win3_2.rect t)).set ↔ _
  rw [View.set_slice_whole, Rect.mem_set_unit]
  exact Iff.rfl

/-- Row `r` lies in the block of point `r / 5000`: the 340 blocks of 5000 rows tile the 1700000 rows. -/
private theorem rows_covered3 (i : S1700000x32.Idx) :
    ∃ t : Fin cfg3.N, (cfg3.win 2).flush t = true ∧ i ∈ ((cfg3.win 2).blk t).view.set := by
  have hi0 : (i 0).val < 1700000 := (i 0).isLt
  have hi1 : (i 1).val < 32 := (i 1).isLt
  have ht : (i 0).val / 5000 < 340 := by omega
  refine ⟨⟨(i 0).val / 5000, ht⟩, flush3_2 _, ?_⟩
  obtain ⟨e0, e1, e2, e3, e4, e5⟩ := block_index3 ⟨(i 0).val / 5000, ht⟩
  rw [mem_block3]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 32 ≤ (i 1).val
      ∧ (i 1).val < win3_2.index ⟨(i 0).val / 5000, ht⟩ (1 : Fin 2) * 32 + 32
    rw [e5]; omega

/-! ## The array the region leaves -/

/-- Every point writes back its block of the scaled array and the blocks tile `main_v42`, so the region leaves the
    scaled array. -/
theorem region3_array (c : Dev nD) :
    (dat3 (F := Ideal) V c).arrAt 2 cfg3.N = Cert.Spec.scale32 (V c main_v41) (V c main_v30) := by
  exact (dat3 (F := Ideal) V c).arrAt_eq_of_cover 2 _ (fun t _ => scaled_block3 V c t) rows_covered3

end Cert.KernelIdeal.RegionValue

end
-- ==== Proof.Region4.lean ====
/-
  REGION 4 of the idealized kernel's @main as ONE function of the arrays it is entered with: the array the third linear layer writes, rows of `main_v45` through the bias row `main_v46`, the rectifier and the weight column `main_arg6`.
-/
import proofs.«411567_j901943132623_2_alg».proof.Proof.Gen.KernelIdeal.Frame
import proofs.«411567_j901943132623_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

open scoped BigOperators

/-! ## The layer's product at an index -/

/-- The product's left operand index on its row axis is the output's row. -/
private theorem lhs_k4_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
/-- On its feature axis it is the summation index. -/
private theorem lhs_k4_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
/-- The right operand index on its feature axis is the summation index. -/
private theorem rhs_k4_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
/-- On its column axis it is the output's column. -/
private theorem rhs_k4_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- The bias row broadcast over the block's rows reads the bias at the column. -/
private theorem bias_rows_apply (x1 : Vec Ideal S1x32 .f32) (p : Fin 5000) (k : Fin 32) :
    broadcastTo S5000x32 x1 broadcasts_S1x32_S5000x32 (ix2 p k) = x1 (ix2 (0 : Fin 1) k) :=
  broadcastTo_apply x1 broadcasts_S1x32_S5000x32 (ix2 p k) (ix2 (0 : Fin 1) k) (fun a => match a with
    | ⟨0, _⟩ => by show (0 : Nat) = if (1 : Nat) = 1 then 0 else _; rw [if_pos rfl]
    | ⟨1, _⟩ => by show k.val = if (32 : Nat) = 1 then 0 else k.val; rw [if_neg (by decide)])

/-- THE BODY'S PAYLOAD at an index of its block: the sum over the 32 features of the rectified biased entry times the weight. -/
private theorem k4_pay1_apply (x0 : Vec Ideal S5000x32 .f32) (x1 : Vec Ideal S1x32 .f32) (x2 : Vec Ideal S32x1 .f32) (p : Fin 5000) (q : Fin 1) :
    k4_pay1 (F := Ideal) x0 x1 x2 (ix2 p q) = ∑ k : Fin 32, Cert.Spec.relu (x0 (ix2 p k) + x1 (ix2 (0 : Fin 1) k)) * x2 (ix2 k q) := by
  unfold k4_pay1
  simp only [shapeCast_self]
  refine (Ideal.matmul_constant_zero_apply dot_S5000x32_S32x1_S5000x1_1_0_0_1_n_n none _ _ (ix2 p q)).trans ?_
  rw [← Equiv.sum_comp (ValueIdx.contrEquiv1 dot_S5000x32_S32x1_S5000x1_1_0_0_1_n_n 32 rfl rfl).symm]
  refine Finset.sum_congr rfl fun k _ => ?_
  have hk := ValueIdx.contrEquiv1_symm_val dot_S5000x32_S32x1_S5000x1_1_0_0_1_n_n 32 rfl rfl k
  have el : dot_S5000x32_S32x1_S5000x1_1_0_0_1_n_n.lhsIdx (ix2 p q) ((ValueIdx.contrEquiv1 dot_S5000x32_S32x1_S5000x1_1_0_0_1_n_n 32 rfl rfl).symm k) = ix2 p k := funext fun a => Fin.ext (by
    match a with
    | ⟨0, _⟩ => exact lhs_k4_0 _ _
    | ⟨1, _⟩ => exact (lhs_k4_1 _ _).trans hk)
  have er : dot_S5000x32_S32x1_S5000x1_1_0_0_1_n_n.rhsIdx (ix2 p q) ((ValueIdx.contrEquiv1 dot_S5000x32_S32x1_S5000x1_1_0_0_1_n_n 32 rfl rfl).symm k) = ix2 k q := funext fun a => Fin.ext (by
    match a with
    | ⟨0, _⟩ => exact (rhs_k4_0 _ _).trans hk
    | ⟨1, _⟩ => exact rhs_k4_1 _ _)
  rw [el, er]
  show max (x0 (ix2 p k) + broadcastTo S5000x32 x1 broadcasts_S1x32_S5000x32 (ix2 p k)) (Ideal.ofBits .f32 0x00000000#32) * x2 (ix2 k q) = _
  rw [bias_rows_apply, Ideal.ofBits_zero_f32]
  rfl

/-- ONE ENTRY of the layer from one entry of the payload: when the three blocks read the arrays `A`, `B`, `W` at row `r`,
    the bias row and the weight column, the payload at row `p` of the block is the layer at row `r`. -/
private theorem layer_entry (A : FVec Ideal Cert.Spec.SN32 .f32) (B : FVec Ideal Cert.Spec.SB32 .f32) (W : FVec Ideal Cert.Spec.SW1 .f32)
    (x0 : Vec Ideal S5000x32 .f32) (x1 : Vec Ideal S1x32 .f32) (x2 : Vec Ideal S32x1 .f32) (r : Fin 100000) (p : Fin 5000) (q : Fin 1)
    (h0 : ∀ k : Fin 32, x0 (ix2 p k) = A (ix2 r k)) (h1 : ∀ k : Fin 32, x1 (ix2 (0 : Fin 1) k) = B (ix2 (0 : Fin 1) k))
    (h2 : ∀ k : Fin 32, x2 (ix2 k q) = W (ix2 k q)) :
    k4_pay1 (F := Ideal) x0 x1 x2 (ix2 p q) = Cert.Spec.dense1 Cert.Spec.relu A B W (ix2 r q) := by
  refine (k4_pay1_apply x0 x1 x2 p q).trans ?_
  show _ = ∑ k : Fin 32, Cert.Spec.relu (A (ix2 r k) + B (ix2 (0 : Fin 1) k)) * W (ix2 k q)
  refine Finset.sum_congr rfl fun k _ => ?_
  rw [h0, h1, h2]

variable (V : (c : Dev nD) → (b : Ref sig .tc) → Buf (Elt Ideal) ((c : Thread nD τ).loc b))

/-! ## The blocks, read off the arrays -/

private theorem zeros2 : (![0, 0] : Fin 2 → Nat) = fun _ => 0 := funext fun a => by fin_cases a <;> rfl

/-- The windows' block indices, decided over the 20 points: the activation rows and the output rows move with the
    point on the row axis; the bias row and the weight column are whole at every point. -/
private theorem block_indices4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- Row `p` of the block of point `t` is row `t * 5000 + p` of the array. -/
private abbrev rowAt (t : Fin cfg4.N) (p : Fin 5000) : Fin 100000 :=
  ⟨t.val * 5000 + p.val, by have ht : t.val < 20 := t.isLt; have hp := p.isLt; omega⟩

/-- The activation block of point `t` reads the array's rows `t * 5000 + p`. -/
private theorem rows_block_apply (c : Dev nD) (t : Fin cfg4.N) (p : Fin 5000) (k : Fin 32) :
    iblk4 (F := Ideal) V c 0 t (ix2 p k) = V c main_v45 (ix2 (rowAt t p) k) := by
  obtain ⟨e0, e1, -⟩ := block_indices4 t
  show V c main_v45 (((cfg4.win 0).blk t).view.emb (ix2 p k)) = _
  refine congrArg (V c main_v45) (funext fun a => Fin.ext ?_)
  match a with
  | ⟨0, _⟩ => show win4_0.index t (0 : Fin 2) * 5000 + 1 * p.val = t.val * 5000 + p.val; omega
  | ⟨1, _⟩ => show win4_0.index t (1 : Fin 2) * 32 + 1 * k.val = k.val; omega

/-- The bias block is the bias row at every point. -/
private theorem bias_block_apply (c : Dev nD) (t : Fin cfg4.N) (k : Fin 32) :
    iblk4 (F := Ideal) V c 1 t (ix2 (0 : Fin 1) k) = V c main_v46 (ix2 (0 : Fin 1) k) := by
  obtain ⟨-, -, e0, e1, -⟩ := block_indices4 t
  show V c main_v46 (((cfg4.win 1).blk t).view.emb (ix2 (0 : Fin 1) k)) = _
  refine congrArg (V c main_v46) (funext fun a => Fin.ext ?_)
  match a with
  | ⟨0, _⟩ => show win4_1.index t (0 : Fin 2) * 1 + 1 * 0 = 0; omega
  | ⟨1, _⟩ => show win4_1.index t (1 : Fin 2) * 32 + 1 * k.val = k.val; omega

/-- The weight block is the weight column at every point. -/
private theorem weight_block_apply (c : Dev nD) (t : Fin cfg4.N) (k : Fin 32) (q : Fin 1) :
    iblk4 (F := Ideal) V c 2 t (ix2 k q) = V c main_arg6 (ix2 k q) := by
  obtain ⟨-, -, -, -, e0, e1, -⟩ := block_indices4 t
  show V c main_arg6 (((cfg4.win 2).blk t).view.emb (ix2 k q)) = _
  refine congrArg (V c main_arg6) (funext fun a => Fin.ext ?_)
  match a with
  | ⟨0, _⟩ => show win4_2.index t (0 : Fin 2) * 32 + 1 * k.val = k.val; omega
  | ⟨1, _⟩ => show win4_2.index t (1 : Fin 2) * 1 + 1 * q.val = q.val; omega

/-- Where an index of the output block of point `t` sits in the output array. -/
private theorem out_block_emb (t : Fin cfg4.N) (p : Fin 5000) (q : Fin 1) :
    ((cfg4.win 3).blk t).view.emb (ix2 p q) = ix2 (rowAt t p) q := by
  obtain ⟨-, -, -, -, -, -, e0, e1⟩ := block_indices4 t
  refine funext fun a => Fin.ext ?_
  match a with
  | ⟨0, _⟩ => show win4_3.index t (0 : Fin 2) * 5000 + 1 * p.val = t.val * 5000 + p.val; omega
  | ⟨1, _⟩ => show win4_3.index t (1 : Fin 2) * 1 + 1 * q.val = q.val; omega

/-! ## What a point writes back -/

/-- WHAT POINT `t` WRITES BACK is block `t` of the linear layer of the arrays as the region finds them. -/
private theorem flushed4_eq (c : Dev nD) (t : Fin cfg4.N) :
    (dat4 (F := Ideal) V c).flushed 3 t = ((cfg4.win 3).blk t).view.read (Elt Ideal) (Cert.Spec.dense1 Cert.Spec.relu (V c main_v45) (V c main_v46) (V c main_arg6)) := by
  show (cfg4.win 3).cut (grid4.coords t) ((dat4 V c).after 3 t) = _
  rw [after4_3]
  unfold out4_3
  rw [View.canon_unit_zero zeros2]
  simp only [View.ld_unit_zero (S := S5000x32) zeros2, View.ld_unit_zero (S := S1x32) zeros2, View.ld_unit_zero (S := S32x1) zeros2]
  funext j
  obtain ⟨p, q, rfl⟩ : ∃ (p : Fin 5000) (q : Fin 1), j = ix2 p q := ⟨j 0, j 1, eq_ix2 j⟩
  show k4_pay1 (F := Ideal) (iblk4 V c 0 t) (iblk4 V c 1 t) (iblk4 V c 2 t) (ix2 p q) = Cert.Spec.dense1 Cert.Spec.relu (V c main_v45) (V c main_v46) (V c main_arg6) (((cfg4.win 3).blk t).view.emb (ix2 p q))
  rw [out_block_emb]
  exact layer_entry (V c main_v45) (V c main_v46) (V c main_arg6) _ _ _ (rowAt t p) p q
    (fun k => rows_block_apply V c t p k) (fun k => bias_block_apply V c t k) (fun k => weight_block_apply V c t k q)

/-! ## The blocks tile the array -/

/-- An index of the array is in point `t`'s block iff each coordinate is in the block's range on its axis. -/
private theorem mem_blk4 (t : Fin cfg4.N) (i : S100000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v47).slice (win4_3.rect t)).set ↔ _
  rw [View.set_slice_whole, Rect.mem_set_unit]
  exact Iff.rfl

/-- Row `r` lies in the block of point `r / 5000`, which is written back. -/
private theorem covered4 (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  have hlt : (i 0).val / 5000 < cfg4.N := by show (i 0).val / 5000 < 20; omega
  obtain ⟨-, -, -, -, -, -, e0, e1⟩ := block_indices4 ⟨(i 0).val / 5000, hlt⟩
  refine ⟨⟨(i 0).val / 5000, hlt⟩, flush4_3 _, ?_⟩
  rw [mem_blk4]
  intro a
  match a with
  | ⟨0, _⟩ =>
    show win4_3.index ⟨(i 0).val / 5000, hlt⟩ (0 : Fin 2) * 5000 ≤ (i 0).val ∧ (i 0).val < win4_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win4_3.index ⟨(i 0).val / 5000, hlt⟩ (1 : Fin 2) * 1 ≤ (i 1).val ∧ (i 1).val < win4_3.index ⟨(i 0).val / 5000, hlt⟩ (1 : Fin 2) * 1 + 1
    rw [e1]; omega

/-! ## The array -/

/-- THE ARRAY the third linear layer leaves: every row is in the block of exactly the point `row / 5000`, and each point
    writes back its block of the layer, so the array is the layer of the arrays the region is entered with. -/
theorem region4_array (c : Dev nD) :
    (dat4 (F := Ideal) V c).arrAt 3 cfg4.N = Cert.Spec.dense1 Cert.Spec.relu (V c main_v45) (V c main_v46) (V c main_arg6) :=
  (dat4 (F := Ideal) V c).arrAt_eq_of_cover 3 _ (fun t _ => flushed4_eq V c t) covered4

end Cert.KernelIdeal.RegionValue

end
-- ==== Proof.Region5.lean ====
/-
  REGION 5 of the idealized kernel's @main as ONE function of the arrays it is entered with: the array the third scaling writes, each edge's entry of `main_v48` times that edge's coefficient in `main_v30`.
-/
import proofs.«411567_j901943132623_2_alg».proof.Proof.Gen.KernelIdeal.Frame
import proofs.«411567_j901943132623_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The scaling body at an index of its block -/

/-- The two zero offsets of a whole-block access, spelt as the constant function. -/
private theorem zero_offsets5 : (![0, 0] : Fin 2 → Nat) = fun _ => 0 := funext fun a => by fin_cases a <;> rfl

/-- The body's product at an index `j` of a block: the edge's entry times the edge's coefficient (both blocks are
    one column wide, so nothing is broadcast; the casts to the same shape change nothing). -/
private theorem scale_body5_at (x0 : Vec Ideal S5000x1 .f32) (x2 : Vec Ideal S5000x1 .f32) (j : S5000x1.Idx) :
    k5_pay1 (F := Ideal) x0 x2 j = x0 j * x2 j := by
  unfold k5_pay1
  simp only [shapeCast_self]
  exact mulf_apply _ _ _

/-! ## Where the blocks sit -/

/-- The index maps over the 340 grid points: at point `t` the entry block, the coefficient block and the output
    block are all block `t` along the edges and block 0 along the single column. -/
private theorem block_index5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The entry block at point `t` read at `y`: the array `main_v48` at the block's element. -/
private theorem entries_block5 (c : Dev nD) (t : Fin cfg5.N) (y : S5000x1.Idx) :
    iblk5 (F := Ideal) V c 0 t y = V c main_v48 (((cfg5.win 0).blk t).view.emb y) := rfl

/-- The coefficient block at point `t` read at `y`: the array `main_v30` at the block's element. -/
private theorem coeff_block5 (c : Dev nD) (t : Fin cfg5.N) (y : S5000x1.Idx) :
    iblk5 (F := Ideal) V c 1 t y = V c main_v30 (((cfg5.win 1).blk t).view.emb y) := rfl

/-- Element `j` of what the body leaves at point `t` is the scaled array at the element of `main_v49` that block `t`
    puts `j` on: the three blocks sit on the same edges of their one-column arrays. -/
private theorem scaled_at5 (c : Dev nD) (t : Fin cfg5.N) (j : S5000x1.Idx) :
    k5_pay1 (F := Ideal) (iblk5 V c 0 t) (iblk5 V c 1 t) j
      = Cert.Spec.scale1 (V c main_v48) (V c main_v30) (((cfg5.win 2).blk t).view.emb j) := by
  obtain ⟨e0, e1, e2, e3, e4, e5⟩ := block_index5 t
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 1 + 1 * (j 1).val = win5_2.index t (1 : Fin 2) * 1 + 1 * (j 1).val; omega
  have h1 : ((cfg5.win 1).blk t).view.emb j = ((cfg5.win 2).blk t).view.emb j := by
    funext a; apply Fin.ext
    match a with
    | ⟨0, _⟩ => show win5_1.index t (0 : Fin 2) * 5000 + 1 * (j 0).val = win5_2.index t (0 : Fin 2) * 5000 + 1 * (j 0).val; omega
    | ⟨1, _⟩ => show win5_1.index t (1 : Fin 2) * 1 + 1 * (j 1).val = win5_2.index t (1 : Fin 2) * 1 + 1 * (j 1).val; omega
  refine (scale_body5_at _ _ j).trans ?_
  rw [entries_block5, coeff_block5, h0, h1]
  rfl

/-- WHAT POINT `t` WRITES BACK is block `t` of the scaled array: edges `5000 t … 5000 t + 4999` of `main_v48`, each
    times its coefficient in `main_v30`. -/
private theorem scaled_block5 (c : Dev nD) (t : Fin cfg5.N) :
    (dat5 (F := Ideal) V c).flushed 2 t
      = ((cfg5.win 2).blk t).view.read (Elt Ideal) (Cert.Spec.scale1 (V c main_v48) (V c main_v30)) := by
  show (cfg5.win 2).cut (grid5.coords t) ((dat5 V c).after 2 t) = _
  rw [after5_2]
  unfold out5_2
  rw [View.canon_unit_zero zero_offsets5]
  simp only [View.ld_unit_zero (S := S5000x1) zero_offsets5]
  funext j
  exact scaled_at5 V c t j

/-! ## The blocks tile the array -/

/-- An element of `main_v49` is in point `t`'s block iff each coordinate is in the block's range on its axis. -/
private theorem mem_block5 (t : Fin cfg5.N) (i : S1700000x1.Idx) :
    i ∈ ((cfg5.win 2).blk t).view.set ↔ ∀ a : Fin 2, win5_2.index t a * S5000x1.size a ≤ (i a).val
      ∧ (i a).val < win5_2.index t a * S5000x1.size a + S5000x1.size a := by
  show i ∈ ((View.whole main_v49).slice (win5_2.rect t)).set ↔ _
  rw [View.set_slice_whole, Rect.mem_set_unit]
  exact Iff.rfl

/-- Edge `r` lies in the block of point `r / 5000`: the 340 blocks of 5000 edges tile the 1700000 edges. -/
private theorem edges_covered5 (i : S1700000x1.Idx) :
    ∃ t : Fin cfg5.N, (cfg5.win 2).flush t = true ∧ i ∈ ((cfg5.win 2).blk t).view.set := by
  have hi0 : (i 0).val < 1700000 := (i 0).isLt
  have hi1 : (i 1).val < 1 := (i 1).isLt
  have ht : (i 0).val / 5000 < 340 := by omega
  refine ⟨⟨(i 0).val / 5000, ht⟩, flush5_2 _, ?_⟩
  obtain ⟨e0, e1, e2, e3, e4, e5⟩ := block_index5 ⟨(i 0).val / 5000, ht⟩
  rw [mem_block5]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 1 ≤ (i 1).val
      ∧ (i 1).val < win5_2.index ⟨(i 0).val / 5000, ht⟩ (1 : Fin 2) * 1 + 1
    rw [e5]; omega

/-! ## The array the region leaves -/

/-- Every point writes back its block of the scaled array and the blocks tile `main_v49`, so the region leaves the
    scaled array. -/
theorem region5_array (c : Dev nD) :
    (dat5 (F := Ideal) V c).arrAt 2 cfg5.N = Cert.Spec.scale1 (V c main_v48) (V c main_v30) := by
  exact (dat5 (F := Ideal) V c).arrAt_eq_of_cover 2 _ (fun t _ => scaled_block5 V c t) edges_covered5

end Cert.KernelIdeal.RegionValue

end
-- ==== Proof.KernelValue.lean ====
/-
  The idealized kernel's RESULT as the reference's term.
  @main is a fold: host stretches and six regions, each leaving buffer contents for the next. Walking it once, every buffer
  the later stages read is identified with the corresponding stage of the reference program (the stage functions
  `val_main_vN` of the reference, read off its operation list):
    the message sources and targets and the per-edge coefficient — the very same host operations on `edge_index`;
    each linear layer — the region's array is Σ_k act (a[r,k] + b[k]) · w[k,j], which is the reference's
      `dot_general` of the rectified, biased activations (the first layer has a zero bias and no rectifier);
    each row lookup — under the index precondition the kernel's filled lookup is the plain gather;
    each scaling — the region's array is the gathered rows times the coefficient broadcast along each row;
    each scatter-add and the final bias — the same host operation applied to equal operands.
-/
import proofs.«411567_j901943132623_2_alg».proof.Proof.Gen.KernelIdeal.Frame
import proofs.«411567_j901943132623_2_alg».proof.Proof.RefRead
import proofs.«411567_j901943132623_2_alg».proof.Proof.Spec
import proofs.«411567_j901943132623_2_alg».proof.Proof.Bridge
import proofs.«411567_j901943132623_2_alg».proof.Proof.TakeValue
import proofs.«411567_j901943132623_2_alg».proof.Proof.SrcRange
import proofs.«411567_j901943132623_2_alg».proof.Proof.Region0
import proofs.«411567_j901943132623_2_alg».proof.Proof.Region1
import proofs.«411567_j901943132623_2_alg».proof.Proof.Region2
import proofs.«411567_j901943132623_2_alg».proof.Proof.Region3
import proofs.«411567_j901943132623_2_alg».proof.Proof.Region4
import proofs.«411567_j901943132623_2_alg».proof.Proof.Region5
import Idealize.ShloMosaic.Lib.StableHlo.Run

set_option maxRecDepth 16384

noncomputable section

namespace Cert.KernelIdeal.KValue

open Cert.KernelIdeal Cert.KernelIdeal.Gen Cert.KernelIdeal.TakeValue Cert.KernelIdeal.SrcRange Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The contents region 0 is entered with -/

/-! ### After the first stretch (the message list and the degrees) -/

theorem src1 : W1 m ρ c (Proc.devRef .tc main_v5) = Cert.ReferenceIdeal.ReadP.val_main_v3 (F := Ideal) (m ((c.tc : Thread nD τ).loc main_arg1)) := by
  show StableHlo.after hostOps0 (W0 m ρ c) (Proc.devRef .tc main_v5) = _
  after_results
  rfl

theorem dst1 : W1 m ρ c (Proc.devRef .tc main_v6) = Cert.ReferenceIdeal.ReadP.val_main_v6 (F := Ideal) (m ((c.tc : Thread nD τ).loc main_arg1)) := by
  show StableHlo.after hostOps0 (W0 m ρ c) (Proc.devRef .tc main_v6) = _
  after_results
  rfl

/-- The degree of every node (the count of messages it receives), as the reference computes it. -/
theorem deg1 : W1 m ρ c (Proc.devRef .tc main_v10) = Cert.ReferenceIdeal.ReadP.val_main_v10 (F := Ideal) (m ((c.tc : Thread nD τ).loc main_arg1)) := by
  show StableHlo.after hostOps0 (W0 m ρ c) (Proc.devRef .tc main_v10) = _
  after_results
  rfl

theorem zero1 : W1 m ρ c (Proc.devRef .tc main_cst_2) = Cert.ReferenceIdeal.ReadP.val_main_cst_2 (F := Ideal) := by
  show StableHlo.after hostOps0 (W0 m ρ c) (Proc.devRef .tc main_cst_2) = _
  after_results
  rfl

theorem pos1 : W1 m ρ c (Proc.devRef .tc main_v12) = Cert.ReferenceIdeal.ReadP.val_main_v12 (F := Ideal) (m ((c.tc : Thread nD τ).loc main_arg1)) := by
  show StableHlo.after hostOps0 (W0 m ρ c) (Proc.devRef .tc main_v12) = _
  after_results
  rfl

theorem rsq1 : W1 m ρ c (Proc.devRef .tc main_v13) = Cert.ReferenceIdeal.ReadP.val_main_v13 (F := Ideal) (m ((c.tc : Thread nD τ).loc main_arg1)) := by
  show StableHlo.after hostOps0 (W0 m ρ c) (Proc.devRef .tc main_v13) = _
  after_results
  rfl

/-! ### After the second stretch (the inverse square root of the degree, zero where the degree is not positive) -/

/-- No operation of a literal stretch writes the named buffer: every operation writes its one result buffer, a different one. -/
macro "not_written" : tactic =>
  `(tactic| (refine List.forall_iff_forall_mem.mp ?_
             simp only [hostOps0_1, hostOps0_2, hostOps1, hostOps2, hostOps3, hostOps4, hostOps5, hostOps6, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

theorem src2 : W2 m ρ c (Proc.devRef .tc main_v5) = Cert.ReferenceIdeal.ReadP.val_main_v3 (F := Ideal) (m ((c.tc : Thread nD τ).loc main_arg1)) :=
  (StableHlo.after_of_forall_not_mem hostOps0_1 (W1 m ρ c) (by not_written)).trans (src1 m ρ c)

theorem dst2 : W2 m ρ c (Proc.devRef .tc main_v6) = Cert.ReferenceIdeal.ReadP.val_main_v6 (F := Ideal) (m ((c.tc : Thread nD τ).loc main_arg1)) :=
  (StableHlo.after_of_forall_not_mem hostOps0_1 (W1 m ρ c) (by not_written)).trans (dst1 m ρ c)

/-- Contents moved to a typed reference's buffer type and back are the contents. -/
private theorem ofBuf_toBuf {Val : EltTy → Type} {T : BufTy} (x : TRef sig T) (v : T.Contents Val) : x.ofBuf (x.toBuf v) = v := by
  obtain ⟨r, rfl, _, _⟩ := x
  rfl

/-- The second stretch read from any contents: where the degree is positive its inverse square root, else the zero splat. -/
theorem dinv_of (W : Valuation τ sig (Elt Ideal)) :
    StableHlo.after (hostOps0_1 (F := Ideal)) W (Proc.devRef .tc main_v14)
      = (select (W (Proc.devRef .tc main_v12) : IVec S100000 1) (W (Proc.devRef .tc main_v13) : FVec Ideal S100000 .f32)
          (broadcastInDim S100000 ![] bcast_S_S100000 (id (W (Proc.devRef .tc main_cst_2) : FVec Ideal S_ .f32))) : FVec Ideal S100000 .f32) := by
  have e12 : (TRef.of main_v12 : TRef sig ⟨S100000, .i1⟩).ofBuf (W (Proc.devRef .tc main_v12)) = W (Proc.devRef .tc main_v12) := rfl
  have e13 : (TRef.of main_v13 : TRef sig ⟨S100000, .f32⟩).ofBuf (W (Proc.devRef .tc main_v13)) = W (Proc.devRef .tc main_v13) := rfl
  have ez : (TRef.of main_cst_2 : TRef sig ⟨S_, .f32⟩).ofBuf (W (Proc.devRef .tc main_cst_2)) = W (Proc.devRef .tc main_cst_2) := rfl
  have eO : ∀ v : (⟨S100000, .f32⟩ : BufTy).Contents (Elt Ideal), (TRef.of main_v14 : TRef sig ⟨S100000, .f32⟩).toBuf v = v := fun _ => rfl
  after_results_simp
  simp only [ofBuf_toBuf]
  rw [eO, e12, e13, ez]

theorem dinv2 : W2 m ρ c (Proc.devRef .tc main_v14) = Cert.ReferenceIdeal.ReadP.val_main_v14 (F := Ideal) (m ((c.tc : Thread nD τ).loc main_arg1)) := by
  refine (dinv_of (W1 m ρ c)).trans ?_
  rw [pos1 m ρ c, rsq1 m ρ c, zero1 m ρ c]
  rfl

/-! ### After the third stretch: the contents region 0 is entered with -/

/-- The third stretch read from any contents: the per-edge coefficient column is the product of the two gathered inverse
    square roots, at the wrapped sources and at the wrapped targets, reshaped to a column. -/
theorem coef_of (W : Valuation τ sig (Elt Ideal)) :
    StableHlo.after (hostOps0_2 (F := Ideal)) W (Proc.devRef .tc main_v30)
      = (shapeCast S1700000x1
          (mulf (F := Ideal) (φ := .f32)
            (Host.gather gather_S100000_S1700000x1_S1700000_n_0_n_n_0_1_1 (W (Proc.devRef .tc main_v14) : FVec Ideal S100000 .f32) (startCol (W (Proc.devRef .tc main_v5))))
            (Host.gather gather_S100000_S1700000x1_S1700000_n_0_n_n_0_1_1 (W (Proc.devRef .tc main_v14) : FVec Ideal S100000 .f32) (startCol (W (Proc.devRef .tc main_v6)))))
          shapeCasts_S1700000_S1700000x1 : FVec Ideal S1700000x1 .f32) := by
  after_results_simp
  rfl

/-- The per-edge coefficient, as the column the scalings read: the reference's coefficient vector reshaped. -/
theorem coef3 : W3 m ρ c (Proc.devRef .tc main_v30)
    = shapeCast S1700000x1 (Cert.ReferenceIdeal.ReadP.val_main_v29 (F := Ideal) (m ((c.tc : Thread nD τ).loc main_arg1))) shapeCasts_S1700000_S1700000x1 := by
  refine (coef_of (W2 m ρ c)).trans ?_
  rw [dinv2 m ρ c, src2 m ρ c, dst2 m ρ c]
  rfl

/-- The message sources and targets are the reference's. -/
theorem src3 : W3 m ρ c (Proc.devRef .tc main_v5) = Cert.ReferenceIdeal.ReadP.val_main_v3 (F := Ideal) (m ((c.tc : Thread nD τ).loc main_arg1)) := by
  show StableHlo.after hostOps0_2 (StableHlo.after hostOps0_1 (StableHlo.after hostOps0 (W0 m ρ c))) (Proc.devRef .tc main_v5) = _
  after_results
  rfl

theorem dst3 : W3 m ρ c (Proc.devRef .tc main_v6) = Cert.ReferenceIdeal.ReadP.val_main_v6 (F := Ideal) (m ((c.tc : Thread nD τ).loc main_arg1)) := by
  show StableHlo.after hostOps0_2 (StableHlo.after hostOps0_1 (StableHlo.after hostOps0 (W0 m ρ c))) (Proc.devRef .tc main_v6) = _
  after_results
  rfl

/-- The first layer's bias row: a zero splat reshaped to one row. -/
theorem zrow3 : W3 m ρ c (Proc.devRef .tc main_v32)
    = shapeCast S1x32 (broadcastInDim S32 ![] bcast_S_S32 (constant (F := Ideal) S_ .f32 0x00000000#32)) shapeCasts_S32_S1x32 := by
  show StableHlo.after hostOps0_2 (StableHlo.after hostOps0_1 (StableHlo.after hostOps0 (W0 m ρ c))) (Proc.devRef .tc main_v32) = _
  after_results
  rfl

/-! The arguments are as launched. -/
theorem arg0_3 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results

theorem arg2_3 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results

theorem arg3_3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results

theorem arg4_3 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results

theorem arg5_3 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results

theorem arg6_3 : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results

theorem arg7_3 : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  after_results

/-! ## What stays put from stage to stage -/

/-- The buffers later stages read and no stage after region 0's entry writes: sources, targets, the coefficient column,
    and the remaining arguments. `Live W` says a valuation holds them at their region-0-entry contents. -/
structure Live (W : Valuation τ sig (Elt Ideal)) : Prop where
  src : W (Proc.devRef .tc main_v5) = Cert.ReferenceIdeal.ReadP.val_main_v3 (F := Ideal) (m ((c.tc : Thread nD τ).loc main_arg1))
  dst : W (Proc.devRef .tc main_v6) = Cert.ReferenceIdeal.ReadP.val_main_v6 (F := Ideal) (m ((c.tc : Thread nD τ).loc main_arg1))
  coef : W (Proc.devRef .tc main_v30)
    = shapeCast S1700000x1 (Cert.ReferenceIdeal.ReadP.val_main_v29 (F := Ideal) (m ((c.tc : Thread nD τ).loc main_arg1))) shapeCasts_S1700000_S1700000x1
  a3 : W (Proc.devRef .tc main_arg3) = m ((c.tc : Thread nD τ).loc main_arg3)
  a4 : W (Proc.devRef .tc main_arg4) = m ((c.tc : Thread nD τ).loc main_arg4)
  a5 : W (Proc.devRef .tc main_arg5) = m ((c.tc : Thread nD τ).loc main_arg5)
  a6 : W (Proc.devRef .tc main_arg6) = m ((c.tc : Thread nD τ).loc main_arg6)
  a7 : W (Proc.devRef .tc main_arg7) = m ((c.tc : Thread nD τ).loc main_arg7)

/-- A stretch of host operations none of which writes one of those buffers keeps them. -/
theorem Live.host {W : Valuation τ sig (Elt Ideal)} (ops : List (HloOp τ sig (Elt Ideal)))
    (h5 : ∀ op ∈ ops, Proc.devRef .tc main_v5 ∉ op.writes) (h6 : ∀ op ∈ ops, Proc.devRef .tc main_v6 ∉ op.writes)
    (h30 : ∀ op ∈ ops, Proc.devRef .tc main_v30 ∉ op.writes) (ha3 : ∀ op ∈ ops, Proc.devRef .tc main_arg3 ∉ op.writes)
    (ha4 : ∀ op ∈ ops, Proc.devRef .tc main_arg4 ∉ op.writes) (ha5 : ∀ op ∈ ops, Proc.devRef .tc main_arg5 ∉ op.writes)
    (ha6 : ∀ op ∈ ops, Proc.devRef .tc main_arg6 ∉ op.writes) (ha7 : ∀ op ∈ ops, Proc.devRef .tc main_arg7 ∉ op.writes)
    (h : Live m c W) : Live m c (StableHlo.after ops W) :=
  ⟨(StableHlo.after_of_forall_not_mem ops W h5).trans h.src, (StableHlo.after_of_forall_not_mem ops W h6).trans h.dst,
   (StableHlo.after_of_forall_not_mem ops W h30).trans h.coef, (StableHlo.after_of_forall_not_mem ops W ha3).trans h.a3,
   (StableHlo.after_of_forall_not_mem ops W ha4).trans h.a4, (StableHlo.after_of_forall_not_mem ops W ha5).trans h.a5,
   (StableHlo.after_of_forall_not_mem ops W ha6).trans h.a6, (StableHlo.after_of_forall_not_mem ops W ha7).trans h.a7⟩

theorem live3 : Live m c (W3 m ρ c) :=
  ⟨src3 m ρ c, dst3 m ρ c, coef3 m ρ c, arg3_3 m ρ c, arg4_3 m ρ c, arg5_3 m ρ c, arg6_3 m ρ c, arg7_3 m ρ c⟩

theorem live4 : Live m c (W4 m ρ c) :=
  let h := live3 m ρ c
  ⟨(W4_of_ne m ρ c main_v5 (by decide)).trans h.src, (W4_of_ne m ρ c main_v6 (by decide)).trans h.dst,
   (W4_of_ne m ρ c main_v30 (by decide)).trans h.coef, (W4_of_ne m ρ c main_arg3 (by decide)).trans h.a3,
   (W4_of_ne m ρ c main_arg4 (by decide)).trans h.a4, (W4_of_ne m ρ c main_arg5 (by decide)).trans h.a5,
   (W4_of_ne m ρ c main_arg6 (by decide)).trans h.a6, (W4_of_ne m ρ c main_arg7 (by decide)).trans h.a7⟩

theorem live5 : Live m c (W5 m ρ c) :=
  (live4 m ρ c).host m c hostOps1 (by not_written) (by not_written) (by not_written) (by not_written) (by not_written)
    (by not_written) (by not_written) (by not_written)

theorem live6 : Live m c (W6 m ρ c) :=
  let h := live5 m ρ c
  ⟨(W6_of_ne m ρ c main_v5 (by decide)).trans h.src, (W6_of_ne m ρ c main_v6 (by decide)).trans h.dst,
   ((W6_arr m ρ c 1).trans (((dat1 (V5 m ρ) c).arrAt_in 1 rfl _).trans (A_eq1 (V5 m ρ) c 1))).trans h.coef, (W6_of_ne m ρ c main_arg3 (by decide)).trans h.a3,
   (W6_of_ne m ρ c main_arg4 (by decide)).trans h.a4, (W6_of_ne m ρ c main_arg5 (by decide)).trans h.a5,
   (W6_of_ne m ρ c main_arg6 (by decide)).trans h.a6, (W6_of_ne m ρ c main_arg7 (by decide)).trans h.a7⟩

theorem live7 : Live m c (W7 m ρ c) :=
  (live6 m ρ c).host m c hostOps2 (by not_written) (by not_written) (by not_written) (by not_written) (by not_written)
    (by not_written) (by not_written) (by not_written)

theorem live8 : Live m c (W8 m ρ c) :=
  let h := live7 m ρ c
  ⟨(W8_of_ne m ρ c main_v5 (by decide)).trans h.src, (W8_of_ne m ρ c main_v6 (by decide)).trans h.dst,
   (W8_of_ne m ρ c main_v30 (by decide)).trans h.coef, (W8_of_ne m ρ c main_arg3 (by decide)).trans h.a3,
   ((W8_arr m ρ c 2).trans (((dat2 (V7 m ρ) c).arrAt_in 2 rfl _).trans (A_eq2 (V7 m ρ) c 2))).trans h.a4, (W8_of_ne m ρ c main_arg5 (by decide)).trans h.a5,
   (W8_of_ne m ρ c main_arg6 (by decide)).trans h.a6, (W8_of_ne m ρ c main_arg7 (by decide)).trans h.a7⟩

theorem live9 : Live m c (W9 m ρ c) :=
  (live8 m ρ c).host m c hostOps3 (by not_written) (by not_written) (by not_written) (by not_written) (by not_written)
    (by not_written) (by not_written) (by not_written)

theorem live10 : Live m c (W10 m ρ c) :=
  let h := live9 m ρ c
  ⟨(W10_of_ne m ρ c main_v5 (by decide)).trans h.src, (W10_of_ne m ρ c main_v6 (by decide)).trans h.dst,
   ((W10_arr m ρ c 1).trans (((dat3 (V9 m ρ) c).arrAt_in 1 rfl _).trans (A_eq3 (V9 m ρ) c 1))).trans h.coef, (W10_of_ne m ρ c main_arg3 (by decide)).trans h.a3,
   (W10_of_ne m ρ c main_arg4 (by decide)).trans h.a4, (W10_of_ne m ρ c main_arg5 (by decide)).trans h.a5,
   (W10_of_ne m ρ c main_arg6 (by decide)).trans h.a6, (W10_of_ne m ρ c main_arg7 (by decide)).trans h.a7⟩

theorem live11 : Live m c (W11 m ρ c) :=
  (live10 m ρ c).host m c hostOps4 (by not_written) (by not_written) (by not_written) (by not_written) (by not_written)
    (by not_written) (by not_written) (by not_written)

theorem live12 : Live m c (W12 m ρ c) :=
  let h := live11 m ρ c
  ⟨(W12_of_ne m ρ c main_v5 (by decide)).trans h.src, (W12_of_ne m ρ c main_v6 (by decide)).trans h.dst,
   (W12_of_ne m ρ c main_v30 (by decide)).trans h.coef, (W12_of_ne m ρ c main_arg3 (by decide)).trans h.a3,
   (W12_of_ne m ρ c main_arg4 (by decide)).trans h.a4, (W12_of_ne m ρ c main_arg5 (by decide)).trans h.a5,
   ((W12_arr m ρ c 2).trans (((dat4 (V11 m ρ) c).arrAt_in 2 rfl _).trans (A_eq4 (V11 m ρ) c 2))).trans h.a6, (W12_of_ne m ρ c main_arg7 (by decide)).trans h.a7⟩

theorem live13 : Live m c (W13 m ρ c) :=
  (live12 m ρ c).host m c hostOps5 (by not_written) (by not_written) (by not_written) (by not_written) (by not_written)
    (by not_written) (by not_written) (by not_written)

theorem live14 : Live m c (W14 m ρ c) :=
  let h := live13 m ρ c
  ⟨(W14_of_ne m ρ c main_v5 (by decide)).trans h.src, (W14_of_ne m ρ c main_v6 (by decide)).trans h.dst,
   ((W14_arr m ρ c 1).trans (((dat5 (V13 m ρ) c).arrAt_in 1 rfl _).trans (A_eq5 (V13 m ρ) c 1))).trans h.coef, (W14_of_ne m ρ c main_arg3 (by decide)).trans h.a3,
   (W14_of_ne m ρ c main_arg4 (by decide)).trans h.a4, (W14_of_ne m ρ c main_arg5 (by decide)).trans h.a5,
   (W14_of_ne m ρ c main_arg6 (by decide)).trans h.a6, (W14_of_ne m ρ c main_arg7 (by decide)).trans h.a7⟩

/-! ## The host stretches between the regions, read from any contents -/

/-- After region 1: the scatter-add of the messages by target, and the next bias as a row. -/
theorem agg_of2 (W : Valuation τ sig (Elt Ideal)) :
    StableHlo.after (hostOps2 (F := Ideal)) W (Proc.devRef .tc main_v38)
      = (Host.scatterAdd scatter_S100000x32_S1700000x1_S1700000x32_1_0_0_1 (broadcastInDim S100000x32 ![] bcast_S_S100000x32 (constant (F := Ideal) S_ .f32 0x00000000#32)) (broadcastInDim S1700000x1 ![0] bcast_S1700000_S1700000x1_0 (W (Proc.devRef .tc main_v6) : IVec S1700000 32))
          (W (Proc.devRef .tc main_v35) : FVec Ideal S1700000x32 .f32) : FVec Ideal S100000x32 .f32) := by
  after_results_simp

theorem brow_of2 (W : Valuation τ sig (Elt Ideal)) :
    StableHlo.after (hostOps2 (F := Ideal)) W (Proc.devRef .tc main_v39)
      = (shapeCast S1x32 (W (Proc.devRef .tc main_arg3) : FVec Ideal S32 .f32) shapeCasts_S32_S1x32 : FVec Ideal S1x32 .f32) := by
  after_results_simp
  rfl

/-- After region 3: the same for the second layer's messages and the third bias. -/
theorem agg_of4 (W : Valuation τ sig (Elt Ideal)) :
    StableHlo.after (hostOps4 (F := Ideal)) W (Proc.devRef .tc main_v45)
      = (Host.scatterAdd scatter_S100000x32_S1700000x1_S1700000x32_1_0_0_1 (broadcastInDim S100000x32 ![] bcast_S_S100000x32 (constant (F := Ideal) S_ .f32 0x00000000#32)) (broadcastInDim S1700000x1 ![0] bcast_S1700000_S1700000x1_0 (W (Proc.devRef .tc main_v6) : IVec S1700000 32))
          (W (Proc.devRef .tc main_v42) : FVec Ideal S1700000x32 .f32) : FVec Ideal S100000x32 .f32) := by
  after_results_simp

theorem brow_of4 (W : Valuation τ sig (Elt Ideal)) :
    StableHlo.after (hostOps4 (F := Ideal)) W (Proc.devRef .tc main_v46)
      = (shapeCast S1x32 (W (Proc.devRef .tc main_arg5) : FVec Ideal S32 .f32) shapeCasts_S32_S1x32 : FVec Ideal S1x32 .f32) := by
  after_results_simp
  rfl

/-- After region 5: the scatter-add of the one-feature messages plus the last bias, the result of @main. -/
theorem out_of6 (W : Valuation τ sig (Elt Ideal)) :
    StableHlo.after (hostOps6 (F := Ideal)) W (Proc.devRef .tc main_v55)
      = (addf (F := Ideal) (φ := .f32)
          (Host.scatterAdd scatter_S100000x1_S1700000x1_S1700000x1_1_0_0_1 (broadcastInDim S100000x1 ![] bcast_S_S100000x1 (constant (F := Ideal) S_ .f32 0x00000000#32)) (broadcastInDim S1700000x1 ![0] bcast_S1700000_S1700000x1_0 (W (Proc.devRef .tc main_v6) : IVec S1700000 32))
            (W (Proc.devRef .tc main_v49) : FVec Ideal S1700000x1 .f32))
          (broadcastInDim S100000x1 ![0, 1] bcast_S1x1_S100000x1_0_1
            (shapeCast S1x1 (W (Proc.devRef .tc main_arg7) : FVec Ideal S1 .f32) shapeCasts_S1_S1x1)) : FVec Ideal S100000x1 .f32) := by
  after_results_simp
  rfl

/-! ## The chain: every stage of the kernel is the reference's stage -/

section Chain

variable (hR : InRange (srcOf (m ((c.tc : Thread nD τ).loc main_arg1))))
include hR

/-- Region 0's array is the first layer's matrix product. -/
theorem lin0 : W4 m ρ c (Proc.devRef .tc main_v33) = Cert.ReferenceIdeal.ReadP.val_main_v30 (F := Ideal) (m ((c.tc : Thread nD τ).loc main_arg0)) (m ((c.tc : Thread nD τ).loc main_arg2)) := by
  refine (W4_arr m ρ c 3).trans ((region0_array (V3 m ρ) c).trans ?_)
  show Cert.Spec.dense32 id (W3 m ρ c (Proc.devRef .tc main_arg0)) (W3 m ρ c (Proc.devRef .tc main_v32)) (W3 m ρ c (Proc.devRef .tc main_arg2)) = _
  rw [arg0_3 m ρ c, zrow3 m ρ c, arg2_3 m ρ c, Cert.Bridge.zero_row]
  exact (Cert.Bridge.dot32_eq_dense_id _ _).symm

/-- The first lookup is the reference's gather of those rows. -/
theorem look1 : W5 m ρ c (Proc.devRef .tc main_v34) = Cert.ReferenceIdeal.ReadP.val_main_v37 (F := Ideal) (m ((c.tc : Thread nD τ).loc main_arg0)) (m ((c.tc : Thread nD τ).loc main_arg1)) (m ((c.tc : Thread nD τ).loc main_arg2)) := by
  have h4 := live4 m ρ c
  refine (take1_value (W4 m ρ c) (by rw [h4.src]; exact hR)).trans ?_
  rw [lin0 m ρ c hR, h4.src]
  rfl

/-- Region 1's array is the reference's scaled messages. -/
theorem msg1 : W6 m ρ c (Proc.devRef .tc main_v35) = Cert.ReferenceIdeal.ReadP.val_main_v40 (F := Ideal) (m ((c.tc : Thread nD τ).loc main_arg0)) (m ((c.tc : Thread nD τ).loc main_arg1)) (m ((c.tc : Thread nD τ).loc main_arg2)) := by
  have h5 := live5 m ρ c
  refine (W6_arr m ρ c 2).trans ((region1_array (V5 m ρ) c).trans ?_)
  show Cert.Spec.scale32 (W5 m ρ c (Proc.devRef .tc main_v34)) (W5 m ρ c (Proc.devRef .tc main_v30)) = _
  rw [look1 m ρ c hR, h5.coef]
  exact (Cert.Bridge.mul_bcast_eq_scale32 _ _ _ _ _).symm

theorem agg1 : W7 m ρ c (Proc.devRef .tc main_v38) = Cert.ReferenceIdeal.ReadP.val_main_v43 (F := Ideal) (m ((c.tc : Thread nD τ).loc main_arg0)) (m ((c.tc : Thread nD τ).loc main_arg1)) (m ((c.tc : Thread nD τ).loc main_arg2)) := by
  refine (agg_of2 (W6 m ρ c)).trans ?_
  rw [(live6 m ρ c).dst, msg1 m ρ c hR]
  rfl

omit hR in
theorem brow1 : W7 m ρ c (Proc.devRef .tc main_v39) = shapeCast S1x32 (m ((c.tc : Thread nD τ).loc main_arg3)) shapeCasts_S32_S1x32 := by
  refine (brow_of2 (W6 m ρ c)).trans ?_
  rw [(live6 m ρ c).a3]

/-- Region 2's array is the second layer: bias, rectifier, matrix product. -/
theorem lin1 : W8 m ρ c (Proc.devRef .tc main_v40) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W8_arr m ρ c 3).trans ((region2_array (V7 m ρ) c).trans ?_)
  show Cert.Spec.dense32 Cert.Spec.relu (W7 m ρ c (Proc.devRef .tc main_v38)) (W7 m ρ c (Proc.devRef .tc main_v39)) (W7 m ρ c (Proc.devRef .tc main_arg4)) = _
  rw [agg1 m ρ c hR, brow1 m ρ c, (live7 m ρ c).a4]
  exact (Cert.Bridge.dot32_eq_dense_relu _ _ _ _ _ _ _).symm

theorem look2 : W9 m ρ c (Proc.devRef .tc main_v41) = Cert.ReferenceIdeal.ReadP.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h8 := live8 m ρ c
  refine (take2_value (W8 m ρ c) (by rw [h8.src]; exact hR)).trans ?_
  rw [lin1 m ρ c hR, h8.src]
  rfl

theorem msg2 : W10 m ρ c (Proc.devRef .tc main_v42) = Cert.ReferenceIdeal.ReadP.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h9 := live9 m ρ c
  refine (W10_arr m ρ c 2).trans ((region3_array (V9 m ρ) c).trans ?_)
  show Cert.Spec.scale32 (W9 m ρ c (Proc.devRef .tc main_v41)) (W9 m ρ c (Proc.devRef .tc main_v30)) = _
  rw [look2 m ρ c hR, h9.coef]
  exact (Cert.Bridge.mul_bcast_eq_scale32 _ _ _ _ _).symm

theorem agg2 : W11 m ρ c (Proc.devRef .tc main_v45) = Cert.ReferenceIdeal.ReadP.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (agg_of4 (W10 m ρ c)).trans ?_
  rw [(live10 m ρ c).dst, msg2 m ρ c hR]
  rfl

omit hR in
theorem brow2 : W11 m ρ c (Proc.devRef .tc main_v46) = shapeCast S1x32 (m ((c.tc : Thread nD τ).loc main_arg5)) shapeCasts_S32_S1x32 := by
  refine (brow_of4 (W10 m ρ c)).trans ?_
  rw [(live10 m ρ c).a5]

/-- Region 4's array is the third layer, into one feature. -/
theorem lin2 : W12 m ρ c (Proc.devRef .tc main_v47) = Cert.ReferenceIdeal.ReadP.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W12_arr m ρ c 3).trans ((region4_array (V11 m ρ) c).trans ?_)
  show Cert.Spec.dense1 Cert.Spec.relu (W11 m ρ c (Proc.devRef .tc main_v45)) (W11 m ρ c (Proc.devRef .tc main_v46)) (W11 m ρ c (Proc.devRef .tc main_arg6)) = _
  rw [agg2 m ρ c hR, brow2 m ρ c, (live11 m ρ c).a6]
  exact (Cert.Bridge.dot1_eq_dense_relu _ _ _ _ _ _ _).symm

theorem look3 : W13 m ρ c (Proc.devRef .tc main_v48) = Cert.ReferenceIdeal.ReadP.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have h12 := live12 m ρ c
  refine (take3_value (W12 m ρ c) (by rw [h12.src]; exact hR)).trans ?_
  rw [lin2 m ρ c hR, h12.src]
  rfl

theorem msg3 : W14 m ρ c (Proc.devRef .tc main_v49) = Cert.ReferenceIdeal.ReadP.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have h13 := live13 m ρ c
  refine (W14_arr m ρ c 2).trans ((region5_array (V13 m ρ) c).trans ?_)
  show Cert.Spec.scale1 (W13 m ρ c (Proc.devRef .tc main_v48)) (W13 m ρ c (Proc.devRef .tc main_v30)) = _
  rw [look3 m ρ c hR, h13.coef]
  exact (Cert.Bridge.mul_bcast_eq_scale1 _ _ _ _).symm

/-- THE RESULT: what @main leaves in its result buffer is the reference's result term of the same arguments. -/
theorem result : W15 m ρ c (Proc.devRef .tc main_v55)
    = Cert.ReferenceIdeal.ReadP.val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h14 := live14 m ρ c
  refine (out_of6 (W14 m ρ c)).trans ?_
  rw [h14.dst, msg3 m ρ c hR, h14.a7, ← Cert.Bridge.bias11 (m ((c.tc : Thread nD τ).loc main_arg7)) (by decide) shapeCasts_S1_S1x1]
  rfl

end Chain

end Cert.KernelIdeal.KValue

end
-- ==== Proof.lean ====
/-
  The certificate of a three-layer graph convolution: the Pallas kernel against its jnp reference, over the extended reals.

  Both programs build the same message list from `edge_index` (the given edges followed by one self loop per node), the
  same degrees, and the same symmetric coefficient dinv[src]·dinv[dst] per message. Each layer then does
      h = act (a + b) · W      (a linear layer over the 100 000 node rows),
      g = h[src]               (one row per message),
      msg = g · coefficient    (row by row),
      agg = scatter-add of msg by target.
  The kernel computes h and msg in pipelined blocks of 5000 rows and looks the rows up with `jnp.take`, whose
  out-of-range fill never fires when every source index is a node number — the precondition's index conjunct; the
  reference uses `@`, `h[src]` and a broadcast product. At the ideal instance a matrix product is the sum of products
  in any grouping and a change of float format is the identity, so block by block the kernel's arrays are the
  reference's, and the result arrays are equal entry by entry. No law of the extended reals beyond that is used, and
  finiteness of the float inputs is not needed.

  The three frames are the generated ones (the reference's is its run with the result dropped); the idealization rewrote
  nothing, so `preserves` is trivial.
-/
import proofs.«411567_j901943132623_2_alg».proof.Defs
import proofs.«411567_j901943132623_2_alg».proof.Proof.Gen.Kernel
import proofs.«411567_j901943132623_2_alg».proof.Proof.Gen.Kernel.Skeleton
import proofs.«411567_j901943132623_2_alg».proof.Proof.Gen.Kernel.Launch
import proofs.«411567_j901943132623_2_alg».proof.Proof.Gen.Kernel.Points
import proofs.«411567_j901943132623_2_alg».proof.Proof.Gen.Kernel.Frame
import proofs.«411567_j901943132623_2_alg».proof.Proof.Gen.KernelIdeal
import proofs.«411567_j901943132623_2_alg».proof.Proof.Gen.KernelIdeal.Skeleton
import proofs.«411567_j901943132623_2_alg».proof.Proof.Gen.KernelIdeal.Launch
import proofs.«411567_j901943132623_2_alg».proof.Proof.Gen.KernelIdeal.Points
import proofs.«411567_j901943132623_2_alg».proof.Proof.Gen.KernelIdeal.Frame
import proofs.«411567_j901943132623_2_alg».proof.Proof.Gen.ReferenceIdeal
import proofs.«411567_j901943132623_2_alg».proof.Proof.Gen.Pre_finite_inputs
import proofs.«411567_j901943132623_2_alg».proof.Proof.RefRun
import proofs.«411567_j901943132623_2_alg».proof.Proof.RefRead
import proofs.«411567_j901943132623_2_alg».proof.Proof.KernelRun
import proofs.«411567_j901943132623_2_alg».proof.Proof.KernelValue
import proofs.«411567_j901943132623_2_alg».proof.Proof.SrcRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's result term of the (agreeing) arguments: the kernel by the walk through its
    regions under the index precondition, the reference by its own run. -/
theorem algebraic : Cert.algebraic_KernelIdeal_ReferenceIdeal := by
  intro m ρ m' ρ' hpre hagree
  refine ⟨fun c => Cert.ReferenceIdeal.ReadP.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.RunP.run_result (F := Ideal) m ρ)
    exact Cert.KernelIdeal.KValue.result m ρ c (Cert.KernelIdeal.SrcRange.src_inRange m hpre c)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v81_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
